-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S1x10000x128 : Shape := ⟨3, ![1, 10000, 128]⟩
abbrev S4x128x128 : Shape := ⟨3, ![4, 128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S1x10000x128 .f32) (main_arg2 : FVec F S4x128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S1x10000x128 : Shape := ⟨3, ![1, 10000, 128]⟩
abbrev S4x128x128 : Shape := ⟨3, ![4, 128, 128]⟩
abbrev S128 : Shape := ⟨1, ![128]⟩
abbrev S10000x128x1 : Shape := ⟨3, ![10000, 128, 1]⟩
abbrev S10000x128 : Shape := ⟨2, ![10000, 128]⟩
abbrev S128x4x128 : Shape := ⟨3, ![128, 4, 128]⟩
abbrev S512x128 : Shape := ⟨2, ![512, 128]⟩
abbrev S1x128 : Shape := ⟨2, ![1, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 16
  | .vmem => 24
  | .smem => 0
  | _ => 0

abbrev bufTy : (tb : Table) → Fin (tcTables nBuf tb) → BufTy
  | .hbm, ⟨0, _⟩ => ⟨S10000x10000, .f32⟩
  | .hbm, ⟨1, _⟩ => ⟨S1x10000x128, .f32⟩
  | .hbm, ⟨2, _⟩ => ⟨S4x128x128, .f32⟩
  | .hbm, ⟨3, _⟩ => ⟨S128, .f32⟩
  | .hbm, ⟨4, _⟩ => ⟨S10000x128x1, .f32⟩
  | .hbm, ⟨5, _⟩ => ⟨S10000x128, .f32⟩
  | .hbm, ⟨6, _⟩ => ⟨S128x4x128, .f32⟩
  | .hbm, ⟨7, _⟩ => ⟨S4x128x128, .f32⟩
  | .hbm, ⟨8, _⟩ => ⟨S512x128, .f32⟩
  | .hbm, ⟨9, _⟩ => ⟨S1x128, .f32⟩
  | .hbm, ⟨10, _⟩ => ⟨S10000x10000, .bf16⟩
  | .hbm, ⟨11, _⟩ => ⟨S10000x128, .bf16⟩
  | .hbm, ⟨12, _⟩ => ⟨S10000x128, .bf16⟩
  | .hbm, ⟨13, _⟩ => ⟨S10000x128, .bf16⟩
  | .hbm, ⟨14, _⟩ => ⟨S10000x128, .f32⟩
  | .hbm, ⟨15, _⟩ => ⟨S1x10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x10000, .bf16⟩
  | .local _ .vmem, ⟨4, _⟩ => ⟨S400x10000, .bf16⟩
  | .local _ .vmem, ⟨5, _⟩ => ⟨S400x128, .bf16⟩
  | .local _ .vmem, ⟨6, _⟩ => ⟨S400x128, .bf16⟩
  | .local _ .vmem, ⟨7, _⟩ => ⟨S400x128, .bf16⟩
  | .local _ .vmem, ⟨8, _⟩ => ⟨S400x128, .bf16⟩
  | .local _ .vmem, ⟨9, _⟩ => ⟨S400x10000, .bf16⟩
  | .local _ .vmem, ⟨10, _⟩ => ⟨S400x10000, .bf16⟩
  | .local _ .vmem, ⟨11, _⟩ => ⟨S10000x128, .bf16⟩
  | .local _ .vmem, ⟨12, _⟩ => ⟨S10000x128, .bf16⟩
  | .local _ .vmem, ⟨13, _⟩ => ⟨S400x128, .bf16⟩
  | .local _ .vmem, ⟨14, _⟩ => ⟨S400x128, .bf16⟩
  | .local _ .vmem, ⟨15, _⟩ => ⟨S400x10000, .bf16⟩
  | .local _ .vmem, ⟨16, _⟩ => ⟨S400x10000, .bf16⟩
  | .local _ .vmem, ⟨17, _⟩ => ⟨S10000x128, .bf16⟩
  | .local _ .vmem, ⟨18, _⟩ => ⟨S10000x128, .bf16⟩
  | .local _ .vmem, ⟨19, _⟩ => ⟨S10000x128, .bf16⟩
  | .local _ .vmem, ⟨20, _⟩ => ⟨S512x128, .f32⟩
  | .local _ .vmem, ⟨21, _⟩ => ⟨S1x128, .f32⟩
  | .local _ .vmem, ⟨22, _⟩ => ⟨S400x128, .f32⟩
  | .local _ .vmem, ⟨23, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_9 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_3 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def k2_off1 (i : grid2.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_3 : Index := 0#32
  ![v6.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S1x10000x128_S10000x128x1_1_2_0 : S1x10000x128.Transposes [1, 2, 0] S10000x128x1
  shapeCasts_S10000x128x1_S10000x128 : S10000x128x1.ShapeCasts S10000x128
  shapeCasts_S4x128x128_S128x4x128 : S4x128x128.ShapeCasts S128x4x128
  transposes_S128x4x128_S4x128x128_1_0_2 : S128x4x128.Transposes [1, 0, 2] S4x128x128
  shapeCasts_S4x128x128_S512x128 : S4x128x128.ShapeCasts S512x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x128_S400x128 : S400x128.ShapeCasts S400x128
  shapeCasts_S400x10000_S400x10000 : S400x10000.ShapeCasts S400x10000
  inb_S512x128_S128x128_0_0 : ∀ a, (![0, 0] : Fin 2 → Nat) a + S128x128.size a ≤ S512x128.size a
  h_S128x128 : 0 < S128x128.numel
  shapeCasts_S128x128_S128x128 : S128x128.ShapeCasts S128x128
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S10000x128_S1x10000x128 : S10000x128.ShapeCasts S1x10000x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .bf16 = 32 ∨ (Rect.block (s := S10000x10000) S400x10000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .bf16 = 32 ∨ (Rect.block (s := S10000x128) S400x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .bf16 = 32 ∨ (Rect.block (s := S10000x128) S400x128.size (cc0_transform_4 i) (hinb0_4 i)).WholeWords (EltTy.packing .bf16)
  hrank1 : 0 < grid1.rank
  k1_off1_inb : ∀ i : grid1.Coords, ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .bf16 = 32 ∨ (Rect.block (s := S10000x128) S400x128.size (cc1_transform_3 i) (hinb1_3 i)).WholeWords (EltTy.packing .bf16)
  hrank2 : 0 < grid2.rank
  k2_off1_inb : ∀ i : grid2.Coords, ∀ a, (k2_off1 i) a + S400x128.size a ≤ S10000x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S10000x128.size a
  hwx2_3 : ∀ i : grid2.Coords, EltTy.bits .bf16 = 32 ∨ (Rect.block (s := S10000x128) S10000x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .f32 = 32 ∨ (Rect.block (s := S512x128) S512x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .f32 = 32 ∨ (Rect.block (s := S10000x128) S400x128.size (cc2_transform_6 i) (hinb2_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S400x10000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6_2) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_1) S10000x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S512x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S1x10000x128 : Shape := ⟨3, ![1, 10000, 128]⟩
abbrev S4x128x128 : Shape := ⟨3, ![4, 128, 128]⟩
abbrev S128 : Shape := ⟨1, ![128]⟩
abbrev S10000x128x1 : Shape := ⟨3, ![10000, 128, 1]⟩
abbrev S10000x128 : Shape := ⟨2, ![10000, 128]⟩
abbrev S_ : Shape := ⟨0, ![]⟩
abbrev S4x10000x128 : Shape := ⟨3, ![4, 10000, 128]⟩
abbrev S4x10000x128x1 : Shape := ⟨4, ![4, 10000, 128, 1]⟩
abbrev S1x10000x128x4 : Shape := ⟨4, ![1, 10000, 128, 4]⟩
abbrev S10000x512 : Shape := ⟨2, ![10000, 512]⟩
abbrev S512x128 : Shape := ⟨2, ![512, 128]⟩
abbrev S1x1x128 : Shape := ⟨3, ![1, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S1x10000x128, .f32⟩
  | .hbm, ⟨2, _⟩ => ⟨S4x128x128, .f32⟩
  | .hbm, ⟨3, _⟩ => ⟨S128, .f32⟩
  | .hbm, ⟨4, _⟩ => ⟨S10000x128x1, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x10000x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S4x10000x128, .f32⟩
  | .hbm, ⟨22, _⟩ => ⟨S4x10000x128x1, .f32⟩
  | .hbm, ⟨23, _⟩ => ⟨S1x10000x128x4, .f32⟩
  | .hbm, ⟨24, _⟩ => ⟨S10000x512, .f32⟩
  | .hbm, ⟨25, _⟩ => ⟨S512x128, .f32⟩
  | .hbm, ⟨26, _⟩ => ⟨S10000x128, .f32⟩
  | .hbm, ⟨27, _⟩ => ⟨S1x10000x128, .f32⟩
  | .hbm, ⟨28, _⟩ => ⟨S1x1x128, .f32⟩
  | .hbm, ⟨29, _⟩ => ⟨S1x10000x128, .f32⟩
  | .hbm, ⟨30, _⟩ => ⟨S1x10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  transposes_S1x10000x128_S10000x128x1_1_2_0 : S1x10000x128.Transposes [1, 2, 0] S10000x128x1
  shapeCasts_S10000x128x1_S10000x128 : S10000x128x1.ShapeCasts S10000x128
  bcast_S_S10000x128 : S_.BroadcastsInDim S10000x128 (![] : Fin 0 → Fin S10000x128.rank)
  bcast_S10000x128_S1x10000x128_1_2 : S10000x128.BroadcastsInDim S1x10000x128 (![1, 2] : Fin 2 → Fin S1x10000x128.rank)
  concatenates_S1x10000x128_S1x10000x128_S1x10000x128_S1x10000x128_S4x10000x128_d0 : Shape.Concatenates [S1x10000x128, S1x10000x128, S1x10000x128, S1x10000x128] S4x10000x128 0
  shapeCasts_S4x10000x128_S4x10000x128x1 : S4x10000x128.ShapeCasts S4x10000x128x1
  transposes_S4x10000x128x1_S1x10000x128x4_3_1_2_0 : S4x10000x128x1.Transposes [3, 1, 2, 0] S1x10000x128x4
  shapeCasts_S1x10000x128x4_S10000x512 : S1x10000x128x4.ShapeCasts S10000x512
  shapeCasts_S4x128x128_S512x128 : S4x128x128.ShapeCasts S512x128
  shapeCasts_S10000x128_S1x10000x128 : S10000x128.ShapeCasts S1x10000x128
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  dot_S10000x10000_S10000x128_S10000x128_1_0_0_1_n_n_wf : DotDims.WF S10000x10000 S10000x128 S10000x128 [1] [0] [0] [1] [] []
  dot_S10000x512_S512x128_S10000x128_1_0_0_1_n_n_wf : DotDims.WF S10000x512 S512x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.Spec.lean ====
/-
  The mathematics of the Chebyshev graph convolution of order four, index by index on the extended reals.

  With `L` a 10000 × 10000 matrix and `x₀` a 10000 × 128 matrix, the Chebyshev recurrence is
  `x₁ = L x₀`, `x₂ = 2 · (L x₁) − x₀`, `x₃ = 2 · (L x₂) − x₁`, every product `L x` a sum over the 10000
  columns of `L`. The result at row `v` and output channel `o` is
  `∑ₖ ∑_f xₖ(v, f) · w(4 f + k, o) + b(o)`, where `w` is the weight array read as 512 rows of 128:
  input channel `f` of order `k` meets row `4 f + k`.

  One program adds the four orders' sums over `f` one after the other; the other takes ONE sum over the
  512 rows `r = 4 f + k`. Addition on the extended reals is commutative and associative, so a sum over
  `Fin 512` is the four sums over `Fin 128` of its residue classes modulo 4 (`sum_four_classes`): no
  distributivity, hence no finiteness, is needed.
-/
import Idealize.ShloMosaic.Lib.ValueIdx
import Idealize.ShloMosaic.PureOps.Ideal.Laws

noncomputable section

namespace Cert.Cheb

open Idealize.ShloMosaic Idealize.ShloMosaic.ValueIdx

/-- The shapes of the arrays the recurrence runs over. -/
abbrev SL : Shape := ⟨2, ![10000, 10000]⟩
abbrev SX : Shape := ⟨2, ![10000, 128]⟩
abbrev SW : Shape := ⟨2, ![512, 128]⟩
abbrev SB : Shape := ⟨2, ![1, 128]⟩
abbrev SIn : Shape := ⟨3, ![1, 10000, 128]⟩
abbrev SWt : Shape := ⟨3, ![4, 128, 128]⟩
abbrev SBs : Shape := ⟨1, ![128]⟩

/-- The factor of the recurrence: the number whose binary32 pattern is `0x40000000`. -/
def two : EReal := Ideal.ofBits .f32 0x40000000#32

/-- `L x` at row `v`, channel `f`: the sum over the columns of `L`. -/
def lapAt (L : SL.Idx → EReal) (x : SX.Idx → EReal) (v : Fin 10000) (f : Fin 128) : EReal :=
  ∑ k : Fin 10000, L (ix2 v k) * x (ix2 k f)

/-- `L x` as an array. -/
def lap (L : SL.Idx → EReal) (x : SX.Idx → EReal) : SX.Idx → EReal := fun i => lapAt L x (i 0) (i 1)

/-- One step of the recurrence at an entry: `2 · (L x)(v, f) − y(v, f)`. -/
def stepAt (L : SL.Idx → EReal) (x y : SX.Idx → EReal) (v : Fin 10000) (f : Fin 128) : EReal :=
  two * lapAt L x v f - y (ix2 v f)

/-- One step of the recurrence as an array. -/
def step (L : SL.Idx → EReal) (x y : SX.Idx → EReal) : SX.Idx → EReal := fun i => stepAt L x y (i 0) (i 1)

/-- The four orders' contributions added one after the other, then the bias row: the result at row `v`,
    channel `o`, from the three stored orders `x₀ x₁ x₂`, the third formed on the spot as a step from
    `x₂` and `x₁`, against the weight rows `128 k + f` of a 512-row array `wp`. -/
def outAt (L : SL.Idx → EReal) (x2 x1 x0 : SX.Idx → EReal) (wp : SW.Idx → EReal) (b : SB.Idx → EReal)
    (v : Fin 10000) (o : Fin 128) : EReal :=
  ((((∑ f : Fin 128, x0 (ix2 v f) * wp (ix2 (⟨f.val, by have := f.isLt; omega⟩ : Fin 512) o))
      + (∑ f : Fin 128, x1 (ix2 v f) * wp (ix2 (⟨128 + f.val, by have := f.isLt; omega⟩ : Fin 512) o)))
      + (∑ f : Fin 128, x2 (ix2 v f) * wp (ix2 (⟨256 + f.val, by have := f.isLt; omega⟩ : Fin 512) o)))
      + (∑ f : Fin 128, stepAt L x2 x1 v f * wp (ix2 (⟨384 + f.val, by have := f.isLt; omega⟩ : Fin 512) o)))
    + b (ix2 (0 : Fin 1) o)

/-- The same as an array of 10000 rows. -/
def out (L : SL.Idx → EReal) (x2 x1 x0 : SX.Idx → EReal) (wp : SW.Idx → EReal) (b : SB.Idx → EReal) :
    SX.Idx → EReal := fun i => outAt L x2 x1 x0 wp b (i 0) (i 1)

/-! ## The result as a function of the four argument arrays -/

/-- `x₀`: the one batch entry of the input array. -/
def x0of (inp : SIn.Idx → EReal) : SX.Idx → EReal := fun i => inp (ix3 (0 : Fin 1) (i 0) (i 1))

/-- Row `r` of the weight array read as 512 rows: row `r mod 128` of its block `r / 128`. -/
def wrow (wt : SWt.Idx → EReal) (r : Fin 512) (o : Fin 128) : EReal :=
  wt (ix3 (⟨r.val / 128, by have := r.isLt; omega⟩ : Fin 4) (⟨r.val % 128, by omega⟩ : Fin 128) o)

/-- The weight rows in the order the four sums meet them: row `128 k + f` is row `4 f + k` of the weights. -/
def wperm (wt : SWt.Idx → EReal) : SW.Idx → EReal := fun j =>
  wrow wt (⟨4 * ((j 0).val % 128) + (j 0).val / 128, by have h : (j 0).val < 512 := (j 0).isLt; omega⟩ : Fin 512) (j 1)

/-- The bias as one row. -/
def brow (bs : SBs.Idx → EReal) : SB.Idx → EReal := fun j => bs (ix1 (j 1))

/-- THE RESULT: at batch entry 0, row `v`, channel `o`. -/
def G (L : SL.Idx → EReal) (inp : SIn.Idx → EReal) (wt : SWt.Idx → EReal) (bs : SBs.Idx → EReal) :
    SIn.Idx → EReal := fun i =>
  outAt L (step L (lap L (x0of inp)) (x0of inp)) (lap L (x0of inp)) (x0of inp) (wperm wt) (brow bs) (i 1) (i 2)

/-! ## The one law: a sum over 512 rows is the four sums over its residue classes modulo 4 -/

/-- In a commutative additive monoid, `∑ r < 512, g r` is the sums over `r = 4 f + k`, `k = 0, 1, 2, 3`,
    added in that order. -/
theorem sum_four_classes {M : Type*} [AddCommMonoid M] (g : Fin 512 → M) :
    ∑ r : Fin 512, g r
      = (((∑ f : Fin 128, g ⟨4 * f.val, by have := f.isLt; omega⟩)
          + (∑ f : Fin 128, g ⟨4 * f.val + 1, by have := f.isLt; omega⟩))
          + (∑ f : Fin 128, g ⟨4 * f.val + 2, by have := f.isLt; omega⟩))
          + (∑ f : Fin 128, g ⟨4 * f.val + 3, by have := f.isLt; omega⟩) := by
  have e : ∀ (f : Fin 128) (k : Fin 4), g ((finProdFinEquiv : Fin 128 × Fin 4 ≃ Fin (128 * 4)) (f, k))
      = g ⟨4 * f.val + k.val, by have := f.isLt; have := k.isLt; omega⟩ := fun f k =>
    congrArg g (Fin.ext (by simp only [finProdFinEquiv_apply_val]; omega))
  rw [← Equiv.sum_comp (finProdFinEquiv : Fin 128 × Fin 4 ≃ Fin (128 * 4)) g, Fintype.sum_prod_type, Finset.sum_comm,
    Fin.sum_univ_four]
  simp only [e]
  rfl

end Cert.Cheb

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Pass1.lean ====
/-
  The first pass of the Chebyshev recurrence: what its three output arrays end holding.

  At grid point `t` the body reads rows `400 t … 400 t + 399` of the Laplacian `L` as its first block and the
  whole of `x₀`. It stores the block of `L` again (a change of float format: the identity at the ideal values),
  the product `Lrows · x₀` (rows `400 t …` of `x₁ = L x₀`), and rows `400 t …` of `x₀` loaded through a rectangle
  at that row offset. The 25 blocks tile the 10000 rows of each output, so the three arrays end at `L`, at `x₀`
  and at `L x₀`.
-/
import proofs.«155581_g1580547967739_cont_week2b_856_4_alg».proof.Proof.Gen.KernelIdeal.Frame
import proofs.«155581_g1580547967739_cont_week2b_856_4_alg».proof.Proof.Spec
import proofs.«155581_g1580547967739_cont_week2b_856_4_alg».proof.Proof.LibPlainDot
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pass1

open Cert.KernelIdeal Cert.KernelIdeal.Gen Cert.Cheb

theorem hz : (![0, 0] : Fin 2 → Nat) = fun _ => 0 := funext fun a => by fin_cases a <;> rfl

section Piece
variable {F : FTy → Type} [FloatOps F]

/-- The first output's staging buffer: the Laplacian's block, its float format changed. -/
theorem outL_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S400x10000 .bf16) (h3 : a3.IsWhole)
    (a4 : Memref sig .tc .vmem S400x128 .bf16) (h4 : a4.IsWhole) (a5 : Memref sig .tc .vmem S400x128 .bf16) (h5 : a5.IsWhole)
    (x0 : Vec F S400x10000 .f32) (x1 : Vec F S10000x128 .f32) :
    out0_A_2 c i a1 h1 a2 h2 a3 h3 a4 h4 a5 h5 x0 x1 = k0_pay1 x0 := by
  unfold out0_A_2
  rw [View.read_writes_eq_canon _ _ _ (cover0_A_2 c i a1 h1 a2 h2 a3 h3 a4 h4 a5 h5 x0 x1)]
  unfold kernelRun0_A
  dsimp only
  sl_unfold_words
  rw [View.canon_unit_zero hz]
  simp only [View.readAt_eq_ld, h1.read_unread, h2.read_unread, View.ld_unit_zero (S := S400x10000) hz,
    View.ld_unit_zero (S := S10000x128) hz]

/-- The second output's staging buffer: the rows of `x₀` loaded through the rectangle at the point's row offset. -/
theorem outX0_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S400x10000 .bf16) (h3 : a3.IsWhole)
    (a4 : Memref sig .tc .vmem S400x128 .bf16) (h4 : a4.IsWhole) (a5 : Memref sig .tc .vmem S400x128 .bf16) (h5 : a5.IsWhole)
    (x0 : Vec F S400x10000 .f32) (x1 : Vec F S10000x128 .f32) :
    out0_A_3 c i a1 h1 a2 h2 a3 h3 a4 h4 a5 h5 x0 x1
      = k0_pay3 (View.ld x1 (Rect.unit (s := S10000x128) (k0_off1 i) S400x128.size (k0_off1_inb i))) := by
  unfold out0_A_3
  rw [View.read_writes_eq_canon _ _ _ (cover0_A_3 c i a1 h1 a2 h2 a3 h3 a4 h4 a5 h5 x0 x1)]
  unfold kernelRun0_A
  dsimp only
  sl_unfold_words
  rw [View.canon_unit_zero hz]
  simp only [View.readAt_eq_ld, h1.read_unread, h2.read_unread, View.ld_unit_zero (S := S400x10000) hz,
    View.ld_unit_zero (S := S10000x128) hz]

/-- The third output's staging buffer: the block's product with the whole of `x₀`. -/
theorem outX1_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S400x10000 .bf16) (h3 : a3.IsWhole)
    (a4 : Memref sig .tc .vmem S400x128 .bf16) (h4 : a4.IsWhole) (a5 : Memref sig .tc .vmem S400x128 .bf16) (h5 : a5.IsWhole)
    (x0 : Vec F S400x10000 .f32) (x1 : Vec F S10000x128 .f32) :
    out0_A_4 c i a1 h1 a2 h2 a3 h3 a4 h4 a5 h5 x0 x1 = k0_pay2 x0 x1 := by
  unfold out0_A_4
  rw [View.read_writes_eq_canon _ _ _ (cover0_A_4 c i a1 h1 a2 h2 a3 h3 a4 h4 a5 h5 x0 x1)]
  unfold kernelRun0_A
  dsimp only
  sl_unfold_words
  rw [View.canon_unit_zero hz]
  simp only [View.readAt_eq_ld, h1.read_unread, h2.read_unread, View.ld_unit_zero (S := S400x10000) hz,
    View.ld_unit_zero (S := S10000x128) hz]

end Piece

/-- The body's product has the plain dimension numbers of a 400 × 10000 by 10000 × 128 product. -/
theorem dims_eq : dot_S400x10000_S10000x128_S400x128_1_0_0_1_n_n = DotDims.plain 400 10000 128 := rfl

/-- The three payloads at an entry of their blocks. -/
theorem payL_apply (l : FVec Ideal S400x10000 .f32) (j : S400x10000.Idx) : k0_pay1 (F := Ideal) l j = l j := rfl

theorem payX0_apply (r : FVec Ideal S400x128 .f32) (j : S400x128.Idx) : k0_pay3 (F := Ideal) r j = r j := by
  unfold k0_pay3
  simp only [shapeCast_self]
  rfl

theorem payX1_apply (l : FVec Ideal S400x10000 .f32) (x : FVec Ideal S10000x128 .f32) (j : S400x128.Idx) :
    k0_pay2 (F := Ideal) l x j = ∑ k : Fin 10000, l (ix2 (j 0) k) * x (ix2 k (j 1)) := by
  obtain ⟨p, q, rfl⟩ : ∃ (p : Fin 400) (q : Fin 128), j = ix2 p q := ⟨j 0, j 1, eq_ix2 j⟩
  unfold k0_pay2
  simp only [shapeCast_self, dims_eq]
  exact Cert.Lib.PlainDot.matmul_zero_apply (M := 400) (K := 10000) (N := 128) none l x p q

/-- The printed index maps and the body's row offset, decided over the 25 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

theorem N_eq : cfg0.N = 25 := rfl

section Array
variable (V : (c : Dev nD) → (b : Ref sig .tc) → Buf (Elt Ideal) ((c : Thread nD τ).loc b))

/-- The arrays the region finds, at their literal types. -/
abbrev arrL (c : Dev nD) : SL.Idx → EReal := V c main_arg0
abbrev arrX (c : Dev nD) : SX.Idx → EReal := V c main_v1

/-- WHAT POINT `t` WRITES BACK to the first output is block `t` of `L`. -/
theorem flushedL_eq (c : Dev nD) (t : Fin cfg0.N) :
    (dat0 V c).flushed 2 t = ((cfg0.win 2).blk t).view.read (Elt Ideal) (arrL V c) := by
  show (cfg0.win 2).cut (grid0.coords t) ((dat0 V c).after 2 t) = _
  rw [after0_2]
  unfold outsAt0
  dsimp only
  rw [outL_eq]
  obtain ⟨e00, e01, -, -, e20, e21, -⟩ := idx_facts t
  funext j
  refine (payL_apply _ j).trans ?_
  show arrL V c (((cfg0.win 0).blk t).view.emb j) = arrL V c (((cfg0.win 2).blk t).view.emb j)
  refine congrArg (arrL V c) (funext fun a => Fin.ext ?_)
  match a with
  | ⟨0, _⟩ => show win0_0.index t (0 : Fin 2) * 400 + 1 * (j 0).val = win0_2.index t (0 : Fin 2) * 400 + 1 * (j 0).val; omega
  | ⟨1, _⟩ => show win0_0.index t (1 : Fin 2) * 10000 + 1 * (j 1).val = win0_2.index t (1 : Fin 2) * 10000 + 1 * (j 1).val; omega

/-- WHAT POINT `t` WRITES BACK to the second output is block `t` of `x₀`. -/
theorem flushedX0_eq (c : Dev nD) (t : Fin cfg0.N) :
    (dat0 V c).flushed 3 t = ((cfg0.win 3).blk t).view.read (Elt Ideal) (arrX V c) := by
  show (cfg0.win 3).cut (grid0.coords t) ((dat0 V c).after 3 t) = _
  rw [after0_3]
  unfold outsAt0
  dsimp only
  rw [outX0_eq]
  obtain ⟨-, -, e10, e11, -, -, e30, e31, -, -, o0, o1⟩ := idx_facts t
  funext j
  refine (payX0_apply _ j).trans ?_
  show arrX V c (((cfg0.win 1).blk t).view.emb ((Rect.unit (s := S10000x128) (k0_off1 (grid0.coords t)) S400x128.size (k0_off1_inb _)).emb j))
    = arrX V c (((cfg0.win 3).blk t).view.emb j)
  refine congrArg (arrX V c) (funext fun a => Fin.ext ?_)
  match a with
  | ⟨0, _⟩ => show win0_1.index t (0 : Fin 2) * 10000 + 1 * (k0_off1 (grid0.coords t) (0 : Fin 2) + 1 * (j 0).val) = win0_3.index t (0 : Fin 2) * 400 + 1 * (j 0).val; omega
  | ⟨1, _⟩ => show win0_1.index t (1 : Fin 2) * 128 + 1 * (k0_off1 (grid0.coords t) (1 : Fin 2) + 1 * (j 1).val) = win0_3.index t (1 : Fin 2) * 128 + 1 * (j 1).val; omega

/-- WHAT POINT `t` WRITES BACK to the third output is block `t` of `L x₀`. -/
theorem flushedX1_eq (c : Dev nD) (t : Fin cfg0.N) :
    (dat0 V c).flushed 4 t = ((cfg0.win 4).blk t).view.read (Elt Ideal) (lap (arrL V c) (arrX V c)) := by
  show (cfg0.win 4).cut (grid0.coords t) ((dat0 V c).after 4 t) = _
  rw [after0_4]
  unfold outsAt0
  dsimp only
  rw [outX1_eq]
  obtain ⟨e00, e01, e10, e11, -, -, -, -, e40, e41, -⟩ := idx_facts t
  funext j
  refine (payX1_apply _ _ j).trans ?_
  show (∑ k : Fin 10000, arrL V c (((cfg0.win 0).blk t).view.emb (ix2 (j 0) k)) * arrX V c (((cfg0.win 1).blk t).view.emb (ix2 k (j 1))))
    = ∑ k : Fin 10000, arrL V c (ix2 ((((cfg0.win 4).blk t).view.emb j) 0) k) * arrX V c (ix2 k ((((cfg0.win 4).blk t).view.emb j) 1))
  have hL : ∀ k : Fin 10000, ((cfg0.win 0).blk t).view.emb (ix2 (j 0) k) = ix2 ((((cfg0.win 4).blk t).view.emb j) 0) k := fun k => by
    funext a; apply Fin.ext
    match a with
    | ⟨0, _⟩ => show win0_0.index t (0 : Fin 2) * 400 + 1 * (j 0).val = win0_4.index t (0 : Fin 2) * 400 + 1 * (j 0).val; omega
    | ⟨1, _⟩ => show win0_0.index t (1 : Fin 2) * 10000 + 1 * k.val = k.val; omega
  have hX : ∀ k : Fin 10000, ((cfg0.win 1).blk t).view.emb (ix2 k (j 1)) = ix2 k ((((cfg0.win 4).blk t).view.emb j) 1) := fun k => by
    funext a; apply Fin.ext
    match a with
    | ⟨0, _⟩ => show win0_1.index t (0 : Fin 2) * 10000 + 1 * k.val = k.val; omega
    | ⟨1, _⟩ => show win0_1.index t (1 : Fin 2) * 128 + 1 * (j 1).val = win0_4.index t (1 : Fin 2) * 128 + 1 * (j 1).val; omega
  simp only [hL, hX]
  rfl

/-- An index of an output array is in point `t`'s block iff each coordinate is in the block's range on its axis. -/
theorem mem_blkL (t : Fin cfg0.N) (i : S10000x10000.Idx) :
    i ∈ ((cfg0.win 2).blk t).view.set ↔ ∀ a : Fin 2, win0_2.index t a * S400x10000.size a ≤ (i a).val ∧ (i a).val < win0_2.index t a * S400x10000.size a + S400x10000.size a := by
  show i ∈ ((View.whole main_v6_0).slice (win0_2.rect t)).set ↔ _
  rw [View.set_slice_whole, Rect.mem_set_unit]
  exact Iff.rfl

theorem mem_blkX0 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v6_1).slice (win0_3.rect t)).set ↔ _
  rw [View.set_slice_whole, Rect.mem_set_unit]
  exact Iff.rfl

theorem mem_blkX1 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v6_2).slice (win0_4.rect t)).set ↔ _
  rw [View.set_slice_whole, Rect.mem_set_unit]
  exact Iff.rfl

/-- THE FIRST OUTPUT after the region is `L`: row `r` is covered by point `r / 400`. -/
theorem finalL (c : Dev nD) : (dat0 V c).arrAt 2 cfg0.N = arrL V c :=
  (dat0 V c).arrAt_eq_of_cover 2 (arrL V c) (fun t _ => flushedL_eq V c t) fun i => by
    have hi0 : (i 0).val < 10000 := (i 0).isLt
    have hi1 : (i 1).val < 10000 := (i 1).isLt
    refine ⟨⟨(i 0).val / 400, by rw [N_eq]; omega⟩, flush0_2 _, ?_⟩
    rw [mem_blkL]
    obtain ⟨-, -, -, -, e20, e21, -⟩ := idx_facts ⟨(i 0).val / 400, by rw [N_eq]; omega⟩
    intro a
    match a with
    | ⟨0, _⟩ => show win0_2.index _ (0 : Fin 2) * 400 ≤ (i 0).val ∧ (i 0).val < win0_2.index _ (0 : Fin 2) * 400 + 400; rw [e20]; dsimp only; omega
    | ⟨1, _⟩ => show win0_2.index _ (1 : Fin 2) * 10000 ≤ (i 1).val ∧ (i 1).val < win0_2.index _ (1 : Fin 2) * 10000 + 10000; rw [e21]; omega

/-- THE SECOND OUTPUT after the region is `x₀`. -/
theorem finalX0 (c : Dev nD) : (dat0 V c).arrAt 3 cfg0.N = arrX V c :=
  (dat0 V c).arrAt_eq_of_cover 3 (arrX V c) (fun t _ => flushedX0_eq V c t) fun i => by
    have hi0 : (i 0).val < 10000 := (i 0).isLt
    have hi1 : (i 1).val < 128 := (i 1).isLt
    refine ⟨⟨(i 0).val / 400, by rw [N_eq]; omega⟩, flush0_3 _, ?_⟩
    rw [mem_blkX0]
    obtain ⟨-, -, -, -, -, -, e30, e31, -⟩ := idx_facts ⟨(i 0).val / 400, by rw [N_eq]; omega⟩
    intro a
    match a with
    | ⟨0, _⟩ => show win0_3.index _ (0 : Fin 2) * 400 ≤ (i 0).val ∧ (i 0).val < win0_3.index _ (0 : Fin 2) * 400 + 400; rw [e30]; dsimp only; omega
    | ⟨1, _⟩ => show win0_3.index _ (1 : Fin 2) * 128 ≤ (i 1).val ∧ (i 1).val < win0_3.index _ (1 : Fin 2) * 128 + 128; rw [e31]; omega

/-- THE THIRD OUTPUT after the region is `L x₀`. -/
theorem finalX1 (c : Dev nD) : (dat0 V c).arrAt 4 cfg0.N = lap (arrL V c) (arrX V c) :=
  (dat0 V c).arrAt_eq_of_cover 4 (lap (arrL V c) (arrX V c)) (fun t _ => flushedX1_eq V c t) fun i => by
    have hi0 : (i 0).val < 10000 := (i 0).isLt
    have hi1 : (i 1).val < 128 := (i 1).isLt
    refine ⟨⟨(i 0).val / 400, by rw [N_eq]; omega⟩, flush0_4 _, ?_⟩
    rw [mem_blkX1]
    obtain ⟨-, -, -, -, -, -, -, -, e40, e41, -⟩ := idx_facts ⟨(i 0).val / 400, by rw [N_eq]; omega⟩
    intro a
    match a with
    | ⟨0, _⟩ => show win0_4.index _ (0 : Fin 2) * 400 ≤ (i 0).val ∧ (i 0).val < win0_4.index _ (0 : Fin 2) * 400 + 400; rw [e40]; dsimp only; omega
    | ⟨1, _⟩ => show win0_4.index _ (1 : Fin 2) * 128 ≤ (i 1).val ∧ (i 1).val < win0_4.index _ (1 : Fin 2) * 128 + 128; rw [e41]; omega

end Array

end Cert.KernelIdeal.Pass1

end
-- ==== Proof.Pass2.lean ====
/-
  The second pass of the Chebyshev recurrence: what its one output array ends holding.

  At grid point `t` the body reads rows `400 t … 400 t + 399` of the (rounded, at the ideal values unchanged)
  Laplacian as its first block, the whole of two 10000 × 128 arrays `x` and `y`, and from `y` the same 400 rows
  through a rectangle at row offset `400 t`; it stores `2 · (Lrows · x) − yrows`. So block `t` of the output is
  rows `400 t …` of `step L x y`, the 25 blocks tile the 10000 rows, and the array ends at `step L x y`.
-/
import proofs.«155581_g1580547967739_cont_week2b_856_4_alg».proof.Proof.Gen.KernelIdeal.Frame
import proofs.«155581_g1580547967739_cont_week2b_856_4_alg».proof.Proof.Spec
import proofs.«155581_g1580547967739_cont_week2b_856_4_alg».proof.Proof.LibPlainDot
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen Cert.Cheb

theorem hz : (![0, 0] : Fin 2 → Nat) = fun _ => 0 := funext fun a => by fin_cases a <;> rfl

section Piece
variable {F : FTy → Type} [FloatOps F]

/-- What the body leaves in the output's staging buffer: its one covering store's payload, of the two whole
    input blocks and of the rows of the third loaded through the rectangle at the point's row offset. -/
theorem out_eq (c : Dev nD) (i : grid1.Coords) (a1 : Memref sig .tc .vmem S400x10000 .bf16) (h1 : a1.IsWhole)
    (a2 : Memref sig .tc .vmem S10000x128 .bf16) (h2 : a2.IsWhole) (a3 : Memref sig .tc .vmem S10000x128 .bf16) (h3 : a3.IsWhole)
    (a4 : Memref sig .tc .vmem S400x128 .bf16) (h4 : a4.IsWhole)
    (x0 : Vec F S400x10000 .bf16) (x1 : Vec F S10000x128 .bf16) (x2 : Vec F S10000x128 .bf16) :
    out1_A_3 c i a1 h1 a2 h2 a3 h3 a4 h4 x0 x1 x2
      = k1_pay1 x0 x1 (View.ld x2 (Rect.unit (s := S10000x128) (k1_off1 i) S400x128.size (k1_off1_inb i))) := by
  unfold out1_A_3
  rw [View.read_writes_eq_canon _ _ _ (cover1_A_3 c i a1 h1 a2 h2 a3 h3 a4 h4 x0 x1 x2)]
  unfold kernelRun1_A
  dsimp only
  sl_unfold_words
  rw [View.canon_unit_zero hz]
  simp only [View.readAt_eq_ld, h1.read_unread, h2.read_unread, h3.read_unread, View.ld_unit_zero (S := S400x10000) hz,
    View.ld_unit_zero (S := S10000x128) hz]

end Piece

/-- The body's product has the plain dimension numbers of a 400 × 10000 by 10000 × 128 product. -/
theorem dims_eq : dot_S400x10000_S10000x128_S400x128_1_0_0_1_n_n = DotDims.plain 400 10000 128 := rfl

/-- The payload at an entry of the block: twice the row's product with the column, less the third operand. -/
theorem pay_apply (x0 : FVec Ideal S400x10000 .bf16) (x1 : FVec Ideal S10000x128 .bf16) (x7 : FVec Ideal S400x128 .bf16)
    (j : S400x128.Idx) :
    k1_pay1 (F := Ideal) x0 x1 x7 j = two * (∑ k : Fin 10000, x0 (ix2 (j 0) k) * x1 (ix2 k (j 1))) - x7 j := by
  obtain ⟨p, q, rfl⟩ : ∃ (p : Fin 400) (q : Fin 128), j = ix2 p q := ⟨j 0, j 1, eq_ix2 j⟩
  unfold k1_pay1
  simp only [shapeCast_self, dims_eq]
  refine (congrArg (fun z : EReal => two * z - x7 (ix2 p q))
    (Cert.Lib.PlainDot.matmul_zero_apply (M := 400) (K := 10000) (N := 128) none x0 x1 p q)).trans ?_
  rfl

/-- The printed index maps and the body's row offset, decided over the 25 points: the Laplacian's block and the
    output's block are block `t` of their arrays, the two whole operands sit at block 0, the rectangle starts at
    row `400 t`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ k1_off1 (grid1.coords t) (0 : Fin 2) = 400 * t.val ∧ k1_off1 (grid1.coords t) (1 : Fin 2) = 0 :=
  (by decide +kernel : ∀ t : Fin grid1.N, _)

theorem N_eq : cfg1.N = 25 := rfl

section Array
variable (V : (c : Dev nD) → (b : Ref sig .tc) → Buf (Elt Ideal) ((c : Thread nD τ).loc b))

/-- The arrays the region finds, at their literal types. -/
abbrev arrL (c : Dev nD) : SL.Idx → EReal := V c main_v6_0
abbrev arrX (c : Dev nD) : SX.Idx → EReal := V c main_v6_2
abbrev arrY (c : Dev nD) : SX.Idx → EReal := V c main_v6_1

/-- WHAT POINT `t` WRITES BACK is block `t` of `step L x y` of the arrays as the region finds them. -/
theorem flushed_eq (c : Dev nD) (t : Fin cfg1.N) :
    (dat1 V c).flushed 3 t
      = ((cfg1.win 3).blk t).view.read (Elt Ideal) (step (arrL V c) (arrX V c) (arrY V c)) := by
  show (cfg1.win 3).cut (grid1.coords t) ((dat1 V c).after 3 t) = _
  rw [after1_3]
  unfold outsAt1
  rw [out_eq]
  obtain ⟨e00, e01, e10, e11, e20, e21, e30, e31, o0, o1⟩ := idx_facts t
  funext j
  have hp : (j 0).val < 400 := (j 0).isLt
  have hq : (j 1).val < 128 := (j 1).isLt
  have ht : t.val < 25 := t.isLt
  refine (pay_apply _ _ _ j).trans ?_
  show two * (∑ k : Fin 10000, arrL V c (((cfg1.win 0).blk t).view.emb (ix2 (j 0) k)) * arrX V c (((cfg1.win 1).blk t).view.emb (ix2 k (j 1))))
      - arrY V c (((cfg1.win 2).blk t).view.emb ((Rect.unit (s := S10000x128) (k1_off1 (grid1.coords t)) S400x128.size (k1_off1_inb _)).emb j))
    = two * (∑ k : Fin 10000, arrL V c (ix2 ((((cfg1.win 3).blk t).view.emb j) 0) k) * arrX V c (ix2 k ((((cfg1.win 3).blk t).view.emb j) 1)))
      - arrY V c (ix2 ((((cfg1.win 3).blk t).view.emb j) 0) ((((cfg1.win 3).blk t).view.emb j) 1))
  have hL : ∀ k : Fin 10000, ((cfg1.win 0).blk t).view.emb (ix2 (j 0) k) = ix2 ((((cfg1.win 3).blk t).view.emb j) 0) k := fun k => by
    funext a; apply Fin.ext
    match a with
    | ⟨0, _⟩ => show win1_0.index t (0 : Fin 2) * 400 + 1 * (j 0).val = win1_3.index t (0 : Fin 2) * 400 + 1 * (j 0).val; omega
    | ⟨1, _⟩ => show win1_0.index t (1 : Fin 2) * 10000 + 1 * k.val = k.val; omega
  have hX : ∀ k : Fin 10000, ((cfg1.win 1).blk t).view.emb (ix2 k (j 1)) = ix2 k ((((cfg1.win 3).blk t).view.emb j) 1) := fun k => by
    funext a; apply Fin.ext
    match a with
    | ⟨0, _⟩ => show win1_1.index t (0 : Fin 2) * 10000 + 1 * k.val = k.val; omega
    | ⟨1, _⟩ => show win1_1.index t (1 : Fin 2) * 128 + 1 * (j 1).val = win1_3.index t (1 : Fin 2) * 128 + 1 * (j 1).val; omega
  have hY : ((cfg1.win 2).blk t).view.emb ((Rect.unit (s := S10000x128) (k1_off1 (grid1.coords t)) S400x128.size (k1_off1_inb _)).emb j)
      = ix2 ((((cfg1.win 3).blk t).view.emb j) 0) ((((cfg1.win 3).blk t).view.emb j) 1) := by
    funext a; apply Fin.ext
    match a with
    | ⟨0, _⟩ => show win1_2.index t (0 : Fin 2) * 10000 + 1 * (k1_off1 (grid1.coords t) (0 : Fin 2) + 1 * (j 0).val) = win1_3.index t (0 : Fin 2) * 400 + 1 * (j 0).val; omega
    | ⟨1, _⟩ => show win1_2.index t (1 : Fin 2) * 128 + 1 * (k1_off1 (grid1.coords t) (1 : Fin 2) + 1 * (j 1).val) = win1_3.index t (1 : Fin 2) * 128 + 1 * (j 1).val; omega
  rw [hY]
  simp only [hL, hX]
  rfl

/-- An index of the array is in point `t`'s block iff each coordinate is in the block's range on its axis. -/
theorem mem_blk (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v7).slice (win1_3.rect t)).set ↔ _
  rw [View.set_slice_whole, Rect.mem_set_unit]
  exact Iff.rfl

/-- THE ARRAY after the region: `step L x y` of the arrays as the region finds them; row `r` is covered by point `r / 400`. -/
theorem final (c : Dev nD) : (dat1 V c).arrAt 3 cfg1.N = step (arrL V c) (arrX V c) (arrY V c) :=
  (dat1 V c).arrAt_eq_of_cover 3 (step (arrL V c) (arrX V c) (arrY V c)) (fun t _ => flushed_eq V c t) fun i => by
    have hi0 : (i 0).val < 10000 := (i 0).isLt
    have hi1 : (i 1).val < 128 := (i 1).isLt
    refine ⟨⟨(i 0).val / 400, by rw [N_eq]; omega⟩, flush1_3 _, ?_⟩
    rw [mem_blk]
    obtain ⟨-, -, -, -, -, -, e30, e31, -, -⟩ := idx_facts ⟨(i 0).val / 400, by rw [N_eq]; omega⟩
    intro a
    match a with
    | ⟨0, _⟩ => show win1_3.index _ (0 : Fin 2) * 400 ≤ (i 0).val ∧ (i 0).val < win1_3.index _ (0 : Fin 2) * 400 + 400; rw [e30]; dsimp only; omega
    | ⟨1, _⟩ => show win1_3.index _ (1 : Fin 2) * 128 ≤ (i 1).val ∧ (i 1).val < win1_3.index _ (1 : Fin 2) * 128 + 128; rw [e31]; omega

end Array

end Cert.KernelIdeal.Pass2

end
-- ==== Proof.Pass3.lean ====
/-
  The third pass of the Chebyshev recurrence: what its one output array ends holding.

  At grid point `t` the body reads rows `400 t … 400 t + 399` of the Laplacian as its first block, the whole of
  the three stored orders `x₂, x₁, x₀` (from each also its rows `400 t …`, through a rectangle at that row offset),
  the 512 weight rows (as four slices of 128 rows) and the bias row. It forms `x₃ = 2 · (Lrows · x₂) − x₁rows`
  on the spot and stores `x₀rows · W₀ + x₁rows · W₁ + x₂rows · W₂ + x₃ · W₃ + bias`, added in that order. So
  block `t` of the output is rows `400 t …` of `out L x₂ x₁ x₀ W b`, the 25 blocks tile the 10000 rows, and the
  array ends at `out L x₂ x₁ x₀ W b`.
-/
import proofs.«155581_g1580547967739_cont_week2b_856_4_alg».proof.Proof.Gen.KernelIdeal.Frame
import proofs.«155581_g1580547967739_cont_week2b_856_4_alg».proof.Proof.Spec
import proofs.«155581_g1580547967739_cont_week2b_856_4_alg».proof.Proof.LibPlainDot
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pass3

open Cert.KernelIdeal Cert.KernelIdeal.Gen Cert.Cheb

theorem hz : (![0, 0] : Fin 2 → Nat) = fun _ => 0 := funext fun a => by fin_cases a <;> rfl

section Piece
variable {F : FTy → Type} [FloatOps F]

/-- What the body leaves in the output's staging buffer: its one covering store's payload, of the whole input
    blocks, of the three stored orders' rows loaded through the rectangle at the point's row offset, and of the
    four slices of the weight rows. -/
theorem out_eq (c : Dev nD) (i : grid2.Coords) (a1 : Memref sig .tc .vmem S400x10000 .bf16) (h1 : a1.IsWhole)
    (a2 : Memref sig .tc .vmem S10000x128 .bf16) (h2 : a2.IsWhole) (a3 : Memref sig .tc .vmem S10000x128 .bf16) (h3 : a3.IsWhole)
    (a4 : Memref sig .tc .vmem S10000x128 .bf16) (h4 : a4.IsWhole) (a5 : Memref sig .tc .vmem S512x128 .f32) (h5 : a5.IsWhole)
    (a6 : Memref sig .tc .vmem S1x128 .f32) (h6 : a6.IsWhole) (a7 : Memref sig .tc .vmem S400x128 .f32) (h7 : a7.IsWhole)
    (x0 : Vec F S400x10000 .bf16) (x1 : Vec F S10000x128 .bf16) (x2 : Vec F S10000x128 .bf16) (x3 : Vec F S10000x128 .bf16)
    (x4 : Vec F S512x128 .f32) (x5 : Vec F S1x128 .f32) :
    out2_A_6 c i a1 h1 a2 h2 a3 h3 a4 h4 a5 h5 a6 h6 a7 h7 x0 x1 x2 x3 x4 x5
      = k2_pay1
          (k2_pay3 x0 x1 (View.ld x2 (Rect.unit (s := S10000x128) (k2_off1 i) S400x128.size (k2_off1_inb i))))
          (k2_pay4 (View.ld x3 (Rect.unit (s := S10000x128) (k2_off1 i) S400x128.size (k2_off1_inb i)))
            (View.ld x2 (Rect.unit (s := S10000x128) (k2_off1 i) S400x128.size (k2_off1_inb i)))
            (View.ld x1 (Rect.unit (s := S10000x128) (k2_off1 i) S400x128.size (k2_off1_inb i)))
            (View.ld x4 (Rect.unit (s := S512x128) ![0, 0] S128x128.size inb_S512x128_S128x128_0_0))
            (View.ld x4 (Rect.unit (s := S512x128) ![128, 0] S128x128.size inb_S512x128_S128x128_128_0))
            (View.ld x4 (Rect.unit (s := S512x128) ![256, 0] S128x128.size inb_S512x128_S128x128_256_0)))
          (k2_pay5 (View.ld x4 (Rect.unit (s := S512x128) ![384, 0] S128x128.size inb_S512x128_S128x128_384_0)))
          x5 := by
  unfold out2_A_6
  rw [View.read_writes_eq_canon _ _ _ (cover2_A_6 c i a1 h1 a2 h2 a3 h3 a4 h4 a5 h5 a6 h6 a7 h7 x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread,
    View.ld_unit_zero (S := S400x10000) hz, View.ld_unit_zero (S := S10000x128) hz, View.ld_unit_zero (S := S1x128) hz]

end Piece

/-- The body's two products have the plain dimension numbers. -/
theorem dimsL_eq : dot_S400x10000_S10000x128_S400x128_1_0_0_1_n_n = DotDims.plain 400 10000 128 := rfl
theorem dimsW_eq : dot_S400x128_S128x128_S400x128_1_0_0_1_n_n = DotDims.plain 400 128 128 := rfl

/-- The payload at an entry `(p, q)` of the block, from the Laplacian's rows `l`, the whole `x₂`, the three orders'
    rows `r₀ r₁ r₂`, the four weight slices and the bias row: the four sums over the 128 channels added in order,
    the fourth over `2 · (l · x₂) − r₁`, then the bias. -/
theorem pay_apply (l : FVec Ideal S400x10000 .bf16) (x2 : FVec Ideal S10000x128 .bf16) (r0 r1 r2 : FVec Ideal S400x128 .bf16)
    (w0 w1 w2 w3 : FVec Ideal S128x128 .f32) (b : FVec Ideal S1x128 .f32) (p : Fin 400) (q : Fin 128) :
    k2_pay1 (F := Ideal) (k2_pay3 l x2 r1) (k2_pay4 r0 r1 r2 w0 w1 w2) (k2_pay5 w3) b (ix2 p q)
      = ((((∑ f : Fin 128, r0 (ix2 p f) * w0 (ix2 f q)) + (∑ f : Fin 128, r1 (ix2 p f) * w1 (ix2 f q)))
          + (∑ f : Fin 128, r2 (ix2 p f) * w2 (ix2 f q)))
          + (∑ f : Fin 128, (two * (∑ k : Fin 10000, l (ix2 p k) * x2 (ix2 k f)) - r1 (ix2 p f)) * w3 (ix2 f q)))
        + b (ix2 (0 : Fin 1) q) := by
  unfold k2_pay1 k2_pay3 k2_pay4 k2_pay5 k2_pay2
  simp only [shapeCast_self, dimsL_eq, dimsW_eq]
  simp only [addf_apply, broadcastTo_1b_ab_apply, Cert.Lib.PlainDot.matmul_zero_apply, subf_apply, mulf_apply,
    broadcast_apply, extf_apply]
  rfl

/-! ## The blocks as rows and slices of the arrays -/

/-- Rows `r … r + 399` of a 10000 × 128 array. -/
def rows (A : SX.Idx → EReal) (r : Nat) (hr : r + 400 ≤ 10000) : S400x128.Idx → EReal := fun j =>
  A (ix2 (⟨r + (j 0).val, by have h0 : (j 0).val < 400 := (j 0).isLt; omega⟩ : Fin 10000) (j 1))

/-- Rows `r … r + 399` of the 10000 × 10000 array. -/
def rowsL (A : SL.Idx → EReal) (r : Nat) (hr : r + 400 ≤ 10000) : S400x10000.Idx → EReal := fun j =>
  A (ix2 (⟨r + (j 0).val, by have h0 : (j 0).val < 400 := (j 0).isLt; omega⟩ : Fin 10000) (j 1))

/-- Rows `o … o + 127` of the 512 weight rows. -/
def wslice (W : SW.Idx → EReal) (o : Nat) (ho : o + 128 ≤ 512) : S128x128.Idx → EReal := fun j =>
  W (ix2 (⟨o + (j 0).val, by have h0 : (j 0).val < 128 := (j 0).isLt; omega⟩ : Fin 512) (j 1))

/-- The payload of rows `r …` of the arrays is rows `r …` of `out`. -/
theorem pay_rows (L : SL.Idx → EReal) (X2 X1 X0 : SX.Idx → EReal) (W : SW.Idx → EReal) (B : SB.Idx → EReal)
    (r : Nat) (hr : r + 400 ≤ 10000) (j : S400x128.Idx) :
    k2_pay1 (F := Ideal) (k2_pay3 (rowsL L r hr) X2 (rows X1 r hr))
        (k2_pay4 (rows X0 r hr) (rows X1 r hr) (rows X2 r hr) (wslice W 0 (by omega)) (wslice W 128 (by omega)) (wslice W 256 (by omega)))
        (k2_pay5 (wslice W 384 (by omega))) B j
      = outAt L X2 X1 X0 W B (⟨r + (j 0).val, by have h0 : (j 0).val < 400 := (j 0).isLt; omega⟩ : Fin 10000) (j 1) := by
  obtain ⟨p, q, rfl⟩ : ∃ (p : Fin 400) (q : Fin 128), j = ix2 p q := ⟨j 0, j 1, eq_ix2 j⟩
  rw [pay_apply]
  unfold outAt stepAt lapAt rows rowsL wslice
  simp only [Nat.zero_add]

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ k2_off1 (grid2.coords t) (0 : Fin 2) = 400 * t.val ∧ k2_off1 (grid2.coords t) (1 : Fin 2) = 0 :=
  (by decide +kernel : ∀ t : Fin grid2.N, _)

theorem N_eq : cfg2.N = 25 := rfl

section Array
variable (V : (c : Dev nD) → (b : Ref sig .tc) → Buf (Elt Ideal) ((c : Thread nD τ).loc b))

/-- The arrays the region finds, at their literal types. -/
abbrev arrL (c : Dev nD) : SL.Idx → EReal := V c main_v6_0
abbrev arrX2 (c : Dev nD) : SX.Idx → EReal := V c main_v7
abbrev arrX1 (c : Dev nD) : SX.Idx → EReal := V c main_v6_2
abbrev arrX0 (c : Dev nD) : SX.Idx → EReal := V c main_v6_1
abbrev arrW (c : Dev nD) : SW.Idx → EReal := V c main_v4
abbrev arrB (c : Dev nD) : SB.Idx → EReal := V c main_v5

theorem hr (t : Fin cfg2.N) : 400 * t.val + 400 ≤ 10000 := by have h : t.val < 25 := t.isLt; omega

/-- The Laplacian's block at point `t` is its rows `400 t …`. -/
theorem blkL (c : Dev nD) (t : Fin cfg2.N) : (iblk2 V c 0 t : S400x10000.Idx → EReal) = rowsL (arrL V c) (400 * t.val) (hr t) := by
  obtain ⟨e00, e01, -⟩ := idx_facts t
  funext j
  show arrL V c (((cfg2.win 0).blk t).view.emb j) = arrL V c _
  refine congrArg (arrL V c) (funext fun a => Fin.ext ?_)
  match a with
  | ⟨0, _⟩ => show win2_0.index t (0 : Fin 2) * 400 + 1 * (j 0).val = 400 * t.val + (j 0).val; omega
  | ⟨1, _⟩ => show win2_0.index t (1 : Fin 2) * 10000 + 1 * (j 1).val = (j 1).val; omega

/-- The whole operands' blocks are the arrays. -/
theorem blkX2 (c : Dev nD) (t : Fin cfg2.N) : (iblk2 V c 1 t : S10000x128.Idx → EReal) = arrX2 V c := by
  obtain ⟨-, -, e10, e11, -⟩ := idx_facts t
  funext j
  show arrX2 V c (((cfg2.win 1).blk t).view.emb j) = arrX2 V c j
  refine congrArg (arrX2 V c) (funext fun a => Fin.ext ?_)
  match a with
  | ⟨0, _⟩ => show win2_1.index t (0 : Fin 2) * 10000 + 1 * (j 0).val = (j 0).val; omega
  | ⟨1, _⟩ => show win2_1.index t (1 : Fin 2) * 128 + 1 * (j 1).val = (j 1).val; omega

theorem blkX1 (c : Dev nD) (t : Fin cfg2.N) : (iblk2 V c 2 t : S10000x128.Idx → EReal) = arrX1 V c := by
  obtain ⟨-, -, -, -, e20, e21, -⟩ := idx_facts t
  funext j
  show arrX1 V c (((cfg2.win 2).blk t).view.emb j) = arrX1 V c j
  refine congrArg (arrX1 V c) (funext fun a => Fin.ext ?_)
  match a with
  | ⟨0, _⟩ => show win2_2.index t (0 : Fin 2) * 10000 + 1 * (j 0).val = (j 0).val; omega
  | ⟨1, _⟩ => show win2_2.index t (1 : Fin 2) * 128 + 1 * (j 1).val = (j 1).val; omega

theorem blkX0 (c : Dev nD) (t : Fin cfg2.N) : (iblk2 V c 3 t : S10000x128.Idx → EReal) = arrX0 V c := by
  obtain ⟨-, -, -, -, -, -, e30, e31, -⟩ := idx_facts t
  funext j
  show arrX0 V c (((cfg2.win 3).blk t).view.emb j) = arrX0 V c j
  refine congrArg (arrX0 V c) (funext fun a => Fin.ext ?_)
  match a with
  | ⟨0, _⟩ => show win2_3.index t (0 : Fin 2) * 10000 + 1 * (j 0).val = (j 0).val; omega
  | ⟨1, _⟩ => show win2_3.index t (1 : Fin 2) * 128 + 1 * (j 1).val = (j 1).val; omega

theorem blkW (c : Dev nD) (t : Fin cfg2.N) : (iblk2 V c 4 t : S512x128.Idx → EReal) = arrW V c := by
  obtain ⟨-, -, -, -, -, -, -, -, e40, e41, -⟩ := idx_facts t
  funext j
  show arrW V c (((cfg2.win 4).blk t).view.emb j) = arrW V c j
  refine congrArg (arrW V c) (funext fun a => Fin.ext ?_)
  match a with
  | ⟨0, _⟩ => show win2_4.index t (0 : Fin 2) * 512 + 1 * (j 0).val = (j 0).val; omega
  | ⟨1, _⟩ => show win2_4.index t (1 : Fin 2) * 128 + 1 * (j 1).val = (j 1).val; omega

theorem blkB (c : Dev nD) (t : Fin cfg2.N) : (iblk2 V c 5 t : S1x128.Idx → EReal) = arrB V c := by
  obtain ⟨-, -, -, -, -, -, -, -, -, -, e50, e51, -⟩ := idx_facts t
  funext j
  show arrB V c (((cfg2.win 5).blk t).view.emb j) = arrB V c j
  refine congrArg (arrB V c) (funext fun a => Fin.ext ?_)
  match a with
  | ⟨0, _⟩ => show win2_5.index t (0 : Fin 2) * 1 + 1 * (j 0).val = (j 0).val; omega
  | ⟨1, _⟩ => show win2_5.index t (1 : Fin 2) * 128 + 1 * (j 1).val = (j 1).val; omega

/-- A load of a 10000 × 128 array through the rectangle at the point's row offset is its rows `400 t …`. -/
theorem ld_rows (A : SX.Idx → EReal) (t : Fin cfg2.N) :
    (View.ld (Val := Elt Ideal) (S := S10000x128) (e' := .bf16) A (Rect.unit (s := S10000x128) (k2_off1 (grid2.coords t)) S400x128.size (k2_off1_inb (grid2.coords t)))
        : S400x128.Idx → EReal)
      = rows A (400 * t.val) (hr t) := by
  obtain ⟨-, -, -, -, -, -, -, -, -, -, -, -, -, -, o0, o1⟩ := idx_facts t
  funext j
  show A ((Rect.unit (s := S10000x128) (k2_off1 (grid2.coords t)) S400x128.size (k2_off1_inb (grid2.coords t))).emb j) = A _
  refine congrArg A (funext fun a => Fin.ext ?_)
  match a with
  | ⟨0, _⟩ => show k2_off1 (grid2.coords t) (0 : Fin 2) + 1 * (j 0).val = 400 * t.val + (j 0).val; omega
  | ⟨1, _⟩ => show k2_off1 (grid2.coords t) (1 : Fin 2) + 1 * (j 1).val = (j 1).val; omega

/-- A load of the weight rows through the rectangle at row `o` is the slice of 128 rows from `o`. -/
theorem ld_wslice (W : SW.Idx → EReal) (o : Nat) (ho : o + 128 ≤ 512) (inb : ∀ a, (![o, 0] : Fin 2 → Nat) a + S128x128.size a ≤ S512x128.size a) :
    (View.ld (Val := Elt Ideal) (S := S512x128) (e' := .f32) W (Rect.unit (s := S512x128) ![o, 0] S128x128.size inb) : S128x128.Idx → EReal)
      = wslice W o ho := by
  funext j
  show W ((Rect.unit (s := S512x128) ![o, 0] S128x128.size inb).emb j) = W _
  refine congrArg W (funext fun a => Fin.ext ?_)
  match a with
  | ⟨0, _⟩ => show o + 1 * (j 0).val = o + (j 0).val; omega
  | ⟨1, _⟩ => show 0 + 1 * (j 1).val = (j 1).val; omega

/-- WHAT POINT `t` WRITES BACK is block `t` of `out` of the arrays as the region finds them. -/
theorem flushed_eq (c : Dev nD) (t : Fin cfg2.N) :
    (dat2 V c).flushed 6 t
      = ((cfg2.win 6).blk t).view.read (Elt Ideal) (out (arrL V c) (arrX2 V c) (arrX1 V c) (arrX0 V c) (arrW V c) (arrB V c)) := by
  show (cfg2.win 6).cut (grid2.coords t) ((dat2 V c).after 6 t) = _
  rw [after2_6]
  unfold outsAt2
  rw [out_eq, blkL V c t, blkX2 V c t, blkX1 V c t, blkX0 V c t, blkW V c t, blkB V c t]
  rw [ld_rows (arrX1 V c) t, ld_rows (arrX0 V c) t, ld_rows (arrX2 V c) t,
    ld_wslice (arrW V c) 0 (by omega), ld_wslice (arrW V c) 128 (by omega), ld_wslice (arrW V c) 256 (by omega),
    ld_wslice (arrW V c) 384 (by omega)]
  obtain ⟨-, -, -, -, -, -, -, -, -, -, -, -, e60, e61, -⟩ := idx_facts t
  funext j
  refine (pay_rows _ _ _ _ _ _ _ (hr t) j).trans ?_
  show outAt _ _ _ _ _ _ _ _ = outAt _ _ _ _ _ _ ((((cfg2.win 6).blk t).view.emb j) 0) ((((cfg2.win 6).blk t).view.emb j) 1)
  have h0 : (⟨400 * t.val + (j 0).val, by have h0 : (j 0).val < 400 := (j 0).isLt; have := hr t; omega⟩ : Fin 10000) = (((cfg2.win 6).blk t).view.emb j) 0 := Fin.ext (by
    show 400 * t.val + (j 0).val = win2_6.index t (0 : Fin 2) * 400 + 1 * (j 0).val; omega)
  have h1 : (j 1 : Fin 128) = (((cfg2.win 6).blk t).view.emb j) 1 := Fin.ext (by
    show (j 1).val = win2_6.index t (1 : Fin 2) * 128 + 1 * (j 1).val; omega)
  rw [h0, h1]

/-- An index of the array is in point `t`'s block iff each coordinate is in the block's range on its axis. -/
theorem mem_blk (t : Fin cfg2.N) (i : S10000x128.Idx) :
    i ∈ ((cfg2.win 6).blk t).view.set ↔ ∀ a : Fin 2, win2_6.index t a * S400x128.size a ≤ (i a).val ∧ (i a).val < win2_6.index t a * S400x128.size a + S400x128.size a := by
  show i ∈ ((View.whole main_v8).slice (win2_6.rect t)).set ↔ _
  rw [View.set_slice_whole, Rect.mem_set_unit]
  exact Iff.rfl

/-- THE ARRAY after the region: `out` of the arrays as the region finds them; row `r` is covered by point `r / 400`. -/
theorem final (c : Dev nD) :
    (dat2 V c).arrAt 6 cfg2.N = out (arrL V c) (arrX2 V c) (arrX1 V c) (arrX0 V c) (arrW V c) (arrB V c) :=
  (dat2 V c).arrAt_eq_of_cover 6 _ (fun t _ => flushed_eq V c t) fun i => by
    have hi0 : (i 0).val < 10000 := (i 0).isLt
    have hi1 : (i 1).val < 128 := (i 1).isLt
    refine ⟨⟨(i 0).val / 400, by rw [N_eq]; omega⟩, flush2_6 _, ?_⟩
    rw [mem_blk]
    obtain ⟨-, -, -, -, -, -, -, -, -, -, -, -, e60, e61, -⟩ := idx_facts ⟨(i 0).val / 400, by rw [N_eq]; omega⟩
    intro a
    match a with
    | ⟨0, _⟩ => show win2_6.index _ (0 : Fin 2) * 400 ≤ (i 0).val ∧ (i 0).val < win2_6.index _ (0 : Fin 2) * 400 + 400; rw [e60]; dsimp only; omega
    | ⟨1, _⟩ => show win2_6.index _ (1 : Fin 2) * 128 ≤ (i 1).val ∧ (i 1).val < win2_6.index _ (1 : Fin 2) * 128 + 128; rw [e61]; omega

end Array

end Cert.KernelIdeal.Pass3

end
-- ==== Proof.Whole.lean ====
/-
  The whole run of the idealized kernel: its result array is `G` of the four argument arrays.

  The contents of the buffers at the boundaries of @main are a fold from the launch memory: the first host
  stretch forms `x₀` (a transpose and a reshape of the inputs: the one batch entry), the weight rows in the order
  the third pass meets them (a reshape, a transpose and a reshape of the weights: row `128 k + f` is row `4 f + k`),
  and the bias as one row; the first pass leaves `L`, `x₀` and `x₁ = L x₀`; the second `x₂ = 2 · (L x₁) − x₀`; the
  third the result rows, from `L, x₂, x₁, x₀`, the weight rows and the bias row; the last host operation reshapes
  the 10000 rows to the one batch entry. An array a region only reads is as it was entered; a buffer a region
  does not name is as it was entered.
-/
import proofs.«155581_g1580547967739_cont_week2b_856_4_alg».proof.Proof.Pass1
import proofs.«155581_g1580547967739_cont_week2b_856_4_alg».proof.Proof.Pass2
import proofs.«155581_g1580547967739_cont_week2b_856_4_alg».proof.Proof.Pass3
import proofs.«155581_g1580547967739_cont_week2b_856_4_alg».proof.Proof.KernelIdealRun
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Cheb

variable (m : (ℓ : Loc nD τ sig) → Buf (Elt Ideal) ℓ) (ρ : Dev nD → PrngReg)

/-- The four argument arrays as launched, at their literal types. -/
abbrev aL (c : Dev nD) : SL.Idx → EReal := m ((c : Thread nD τ).loc main_arg0)
abbrev aIn (c : Dev nD) : SIn.Idx → EReal := m ((c : Thread nD τ).loc main_arg1)
abbrev aWt (c : Dev nD) : SWt.Idx → EReal := m ((c : Thread nD τ).loc main_arg2)
abbrev aBs (c : Dev nD) : SBs.Idx → EReal := m ((c : Thread nD τ).loc main_arg3)

/-! ## The first host stretch -/

/-- The Laplacian is not written by the host stretch. -/
theorem entry_L (c : Dev nD) : (V1 m ρ c main_arg0 : SL.Idx → EReal) = aL m c := by
  show StableHlo.after hostOps0 (W0 m ρ c) (Proc.devRef .tc main_arg0) = _
  after_results <;> rfl

/-- `x₀`: the inputs transposed and reshaped, at `(v, f)` the input at `(0, v, f)`. -/
theorem entry_x0 (c : Dev nD) : (V1 m ρ c main_v1 : SX.Idx → EReal) = x0of (aIn m c) := by
  have e : (V1 m ρ c main_v1 : SX.Idx → EReal)
      = shapeCast S10000x128 (transpose S10000x128x1 [1, 2, 0] (aIn m c) transposes_S1x10000x128_S10000x128x1_1_2_0)
          shapeCasts_S10000x128x1_S10000x128 := by
    show StableHlo.after hostOps0 (W0 m ρ c) (Proc.devRef .tc main_v1) = _
    after_results <;> rfl
  rw [e]
  funext i
  have h0 : (i 0).val < 10000 := (i 0).isLt
  have h1 : (i 1).val < 128 := (i 1).isLt
  refine (shapeCast_apply _ shapeCasts_S10000x128x1_S10000x128 i (ix3 (i 0) (i 1) (0 : Fin 1)) (by
    rewrite [Shape.rowMajor_val_three, Shape.rowMajor_val_two]
    show ((i 0).val * 128 + (i 1).val) * 1 + 0 = (i 0).val * 128 + (i 1).val
    omega)).trans ?_
  exact transpose_apply [1, 2, 0] (aIn m c) transposes_S1x10000x128_S10000x128x1_1_2_0 _ (ix3 (0 : Fin 1) (i 0) (i 1))
    (fun b => match b with
      | ⟨0, _⟩ => rfl
      | ⟨1, _⟩ => rfl
      | ⟨2, _⟩ => rfl)

/-- The weight rows as the third pass meets them: row `128 k + f` is row `4 f + k` of the weights. -/
theorem entry_w (c : Dev nD) : (V1 m ρ c main_v4 : SW.Idx → EReal) = wperm (aWt m c) := by
  have e : (V1 m ρ c main_v4 : SW.Idx → EReal)
      = shapeCast S512x128 (transpose S4x128x128 [1, 0, 2]
          (shapeCast S128x4x128 (aWt m c) shapeCasts_S4x128x128_S128x4x128) transposes_S128x4x128_S4x128x128_1_0_2)
          shapeCasts_S4x128x128_S512x128 := by
    show StableHlo.after hostOps0 (W0 m ρ c) (Proc.devRef .tc main_v4) = _
    after_results <;> rfl
  rw [e]
  funext j
  have h0 : (j 0).val < 512 := (j 0).isLt
  have h1 : (j 1).val < 128 := (j 1).isLt
  refine (shapeCast_apply _ shapeCasts_S4x128x128_S512x128 j
    (ix3 (⟨(j 0).val / 128, by omega⟩ : Fin 4) (⟨(j 0).val % 128, by omega⟩ : Fin 128) (j 1)) (by
      rewrite [Shape.rowMajor_val_three, Shape.rowMajor_val_two]
      show ((j 0).val / 128 * 128 + (j 0).val % 128) * 128 + (j 1).val = (j 0).val * 128 + (j 1).val
      omega)).trans ?_
  refine (transpose_apply [1, 0, 2] _ transposes_S128x4x128_S4x128x128_1_0_2 _
    (ix3 (⟨(j 0).val % 128, by omega⟩ : Fin 128) (⟨(j 0).val / 128, by omega⟩ : Fin 4) (j 1))
    (fun b => match b with
      | ⟨0, _⟩ => rfl
      | ⟨1, _⟩ => rfl
      | ⟨2, _⟩ => rfl)).trans ?_
  exact shapeCast_apply (aWt m c) shapeCasts_S4x128x128_S128x4x128 _
    (ix3 (⟨(4 * ((j 0).val % 128) + (j 0).val / 128) / 128, by omega⟩ : Fin 4)
      (⟨(4 * ((j 0).val % 128) + (j 0).val / 128) % 128, by omega⟩ : Fin 128) (j 1)) (by
      rewrite [Shape.rowMajor_val_three, Shape.rowMajor_val_three]
      show ((4 * ((j 0).val % 128) + (j 0).val / 128) / 128 * 128 + (4 * ((j 0).val % 128) + (j 0).val / 128) % 128) * 128 + (j 1).val
        = ((j 0).val % 128 * 4 + (j 0).val / 128) * 128 + (j 1).val
      omega)

/-- The bias as one row. -/
theorem entry_b (c : Dev nD) : (V1 m ρ c main_v5 : SB.Idx → EReal) = brow (aBs m c) := by
  have e : (V1 m ρ c main_v5 : SB.Idx → EReal) = shapeCast S1x128 (aBs m c) shapeCasts_S128_S1x128 := by
    show StableHlo.after hostOps0 (W0 m ρ c) (Proc.devRef .tc main_v5) = _
    after_results <;> rfl
  rw [e]
  funext j
  have h0 : (j 0).val < 1 := (j 0).isLt
  exact shapeCast_apply (aBs m c) shapeCasts_S128_S1x128 j (ix1 (j 1)) (by
    rewrite [Shape.rowMajor_val_one, Shape.rowMajor_val_two]
    show (j 1).val = (j 0).val * 128 + (j 1).val
    omega)

/-! ## After the first pass -/

theorem p1_L (c : Dev nD) : (V2 m ρ c main_v6_0 : SL.Idx → EReal) = aL m c :=
  (W2_arr m ρ c 2).trans ((Pass1.finalL (V1 m ρ) c).trans (entry_L m ρ c))

theorem p1_x0 (c : Dev nD) : (V2 m ρ c main_v6_1 : SX.Idx → EReal) = x0of (aIn m c) :=
  (W2_arr m ρ c 3).trans ((Pass1.finalX0 (V1 m ρ) c).trans (entry_x0 m ρ c))

theorem p1_x1 (c : Dev nD) : (V2 m ρ c main_v6_2 : SX.Idx → EReal) = lap (aL m c) (x0of (aIn m c)) :=
  (W2_arr m ρ c 4).trans ((Pass1.finalX1 (V1 m ρ) c).trans (congrArg₂ lap (entry_L m ρ c) (entry_x0 m ρ c)))

theorem p1_w (c : Dev nD) : (V2 m ρ c main_v4 : SW.Idx → EReal) = wperm (aWt m c) :=
  (W2_of_ne m ρ c main_v4 (by decide)).trans (entry_w m ρ c)

theorem p1_b (c : Dev nD) : (V2 m ρ c main_v5 : SB.Idx → EReal) = brow (aBs m c) :=
  (W2_of_ne m ρ c main_v5 (by decide)).trans (entry_b m ρ c)

/-! ## After the second pass -/

/-- The second order `x₂ = 2 · (L x₁) − x₀`. -/
abbrev x2of (c : Dev nD) : SX.Idx → EReal :=
  step (aL m c) (lap (aL m c) (x0of (aIn m c))) (x0of (aIn m c))

theorem p2_x2 (c : Dev nD) : (V3 m ρ c main_v7 : SX.Idx → EReal) = x2of m c :=
  (W3_arr m ρ c 3).trans ((Pass2.final (V2 m ρ) c).trans (by
    show step (V2 m ρ c main_v6_0 : SL.Idx → EReal) (V2 m ρ c main_v6_2 : SX.Idx → EReal) (V2 m ρ c main_v6_1 : SX.Idx → EReal) = _
    rw [p1_L m ρ c, p1_x1 m ρ c, p1_x0 m ρ c]))

theorem p2_L (c : Dev nD) : (V3 m ρ c main_v6_0 : SL.Idx → EReal) = aL m c :=
  ((W3_arr m ρ c 0).trans (((dat1 (V2 m ρ) c).arrAt_in 0 rfl _).trans (A_eq1 (V2 m ρ) c 0))).trans (p1_L m ρ c)

theorem p2_x1 (c : Dev nD) : (V3 m ρ c main_v6_2 : SX.Idx → EReal) = lap (aL m c) (x0of (aIn m c)) :=
  ((W3_arr m ρ c 1).trans (((dat1 (V2 m ρ) c).arrAt_in 1 rfl _).trans (A_eq1 (V2 m ρ) c 1))).trans (p1_x1 m ρ c)

theorem p2_x0 (c : Dev nD) : (V3 m ρ c main_v6_1 : SX.Idx → EReal) = x0of (aIn m c) :=
  ((W3_arr m ρ c 2).trans (((dat1 (V2 m ρ) c).arrAt_in 2 rfl _).trans (A_eq1 (V2 m ρ) c 2))).trans (p1_x0 m ρ c)

theorem p2_w (c : Dev nD) : (V3 m ρ c main_v4 : SW.Idx → EReal) = wperm (aWt m c) :=
  (W3_of_ne m ρ c main_v4 (by decide)).trans (p1_w m ρ c)

theorem p2_b (c : Dev nD) : (V3 m ρ c main_v5 : SB.Idx → EReal) = brow (aBs m c) :=
  (W3_of_ne m ρ c main_v5 (by decide)).trans (p1_b m ρ c)

/-! ## After the third pass, and the last reshape -/

theorem p3_out (c : Dev nD) : (W4 m ρ c (Proc.devRef .tc main_v8) : SX.Idx → EReal)
    = out (aL m c) (x2of m c) (lap (aL m c) (x0of (aIn m c))) (x0of (aIn m c)) (wperm (aWt m c)) (brow (aBs m c)) :=
  (W4_arr m ρ c 6).trans ((Pass3.final (V3 m ρ) c).trans (by
    show out (V3 m ρ c main_v6_0 : SL.Idx → EReal) (V3 m ρ c main_v7 : SX.Idx → EReal) (V3 m ρ c main_v6_2 : SX.Idx → EReal)
      (V3 m ρ c main_v6_1 : SX.Idx → EReal) (V3 m ρ c main_v4 : SW.Idx → EReal) (V3 m ρ c main_v5 : SB.Idx → EReal) = _
    rw [p2_L m ρ c, p2_x2 m ρ c, p2_x1 m ρ c, p2_x0 m ρ c, p2_w m ρ c, p2_b m ρ c]))

/-- THE RESULT ARRAY at the last boundary is `G` of the argument arrays. -/
theorem result_eq (c : Dev nD) :
    (W5 m ρ c (Proc.devRef .tc main_v9) : SIn.Idx → EReal) = G (aL m c) (aIn m c) (aWt m c) (aBs m c) := by
  have e : (W5 m ρ c (Proc.devRef .tc main_v9) : SIn.Idx → EReal)
      = shapeCast S1x10000x128 (W4 m ρ c (Proc.devRef .tc main_v8) : SX.Idx → EReal) shapeCasts_S10000x128_S1x10000x128 := by
    show StableHlo.after hostOps3 (W4 m ρ c) (Proc.devRef .tc main_v9) = _
    after_results <;> rfl
  rw [e, p3_out m ρ c]
  funext i
  have h0 : (i 0).val < 1 := (i 0).isLt
  have h1 : (i 1).val < 10000 := (i 1).isLt
  have h2 : (i 2).val < 128 := (i 2).isLt
  refine (shapeCast_apply _ shapeCasts_S10000x128_S1x10000x128 i (ix2 (i 1) (i 2)) (by
    rewrite [Shape.rowMajor_val_two, Shape.rowMajor_val_three]
    show (i 1).val * 128 + (i 2).val = ((i 0).val * 10000 + (i 1).val) * 128 + (i 2).val
    omega)).trans ?_
  rfl

/-- The run of the idealized kernel, read: the result array at `G` of the argument arrays, the arguments unchanged. -/
theorem run : θ_run defs (onTc (τ := τ) (main (F := Ideal))) ⟨m, fun _ => 0, ρ⟩ (fun r => ∀ c : Dev nD,
      r.2.mem ((c.tc : Thread nD τ).loc main_v9) = G (aL m c) (aIn m c) (aWt m c) (aBs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Named.run_named m ρ)

end Cert.KernelIdeal.Whole

end
-- ==== Proof.RefIsG.lean ====
/-
  The reference's result is `G`.

  The reference forms x₀ (the one batch entry of the inputs), x₁ = L x₀, x₂ = 2 · (L x₁) − x₀ and
  x₃ = 2 · (L x₂) − x₁, every product L x a sum over the 10000 columns of L. It lays the four side by side,
  X(v, 4 f + k) = xₖ(v, f), reads the weights as 512 rows of 128, W(r, o) = w(r / 128, r mod 128, o), and
  returns ∑_{r < 512} X(v, r) · W(r, o) + b(o) at batch entry 0, row v, channel o.

  The specification adds the same 512 products in four groups: the rows r = 4 f + k for k = 0, 1, 2, 3 in
  that order, each group a sum over the 128 channels f, with the weight row 4 f + k written as the row
  128 k + f of the permuted weights. A sum over 512 rows is the sum of its four residue classes modulo 4
  in any commutative additive monoid, so the two results agree entry by entry; nothing is asked of the
  entries themselves.
-/
import proofs.«155581_g1580547967739_cont_week2b_856_4_alg».proof.Proof.Gen.ReferenceIdeal.Read
import proofs.«155581_g1580547967739_cont_week2b_856_4_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.Cheb Cert.ReferenceIdeal Cert.ReferenceIdeal.Read

variable (L : SL.Idx → EReal) (inp : SIn.Idx → EReal) (wt : SWt.Idx → EReal) (bs : SBs.Idx → EReal)

/-! ## The entries a matrix product reads

Entry (v, f) of a product reads row v of the left factor and column f of the right one. -/

theorem lidx_v2 (i : S10000x128.Idx) (k : Fin 10000) : lidx_main_v2 i k = ix2 (i 0) k := by
  funext a; match a with | ⟨0, _⟩ => rfl | ⟨1, _⟩ => rfl
theorem ridx_v2 (i : S10000x128.Idx) (k : Fin 10000) : ridx_main_v2 i k = ix2 k (i 1) := by
  funext a; match a with | ⟨0, _⟩ => rfl | ⟨1, _⟩ => rfl
theorem lidx_v3 (i : S10000x128.Idx) (k : Fin 10000) : lidx_main_v3 i k = ix2 (i 0) k := by
  funext a; match a with | ⟨0, _⟩ => rfl | ⟨1, _⟩ => rfl
theorem ridx_v3 (i : S10000x128.Idx) (k : Fin 10000) : ridx_main_v3 i k = ix2 k (i 1) := by
  funext a; match a with | ⟨0, _⟩ => rfl | ⟨1, _⟩ => rfl
theorem lidx_v7 (i : S10000x128.Idx) (k : Fin 10000) : lidx_main_v7 i k = ix2 (i 0) k := by
  funext a; match a with | ⟨0, _⟩ => rfl | ⟨1, _⟩ => rfl
theorem ridx_v7 (i : S10000x128.Idx) (k : Fin 10000) : ridx_main_v7 i k = ix2 k (i 1) := by
  funext a; match a with | ⟨0, _⟩ => rfl | ⟨1, _⟩ => rfl
theorem lidx_v20 (v : Fin 10000) (o : Fin 128) (k : Fin 512) : lidx_main_v20 (ix2 v o) k = ix2 v k := by
  funext a; match a with | ⟨0, _⟩ => rfl | ⟨1, _⟩ => rfl
theorem ridx_v20 (v : Fin 10000) (o : Fin 128) (k : Fin 512) : ridx_main_v20 (ix2 v o) k = ix2 k o := by
  funext a; match a with | ⟨0, _⟩ => rfl | ⟨1, _⟩ => rfl

/-! ## The four orders x₀, x₁, x₂, x₃ -/

/-- x₀ is the one batch entry of the inputs: (v, f) ↦ inp(0, v, f). -/
theorem v1_eq : val_main_v1 (F := Ideal) inp = x0of inp := by
  funext i
  rw [val_main_v1_apply, val_main_v0_apply]
  show inp (idx_main_v0 (idx_main_v1 i)) = inp (ix3 (0 : Fin 1) (i 0) (i 1))
  have h0 : (i 0).val < 10000 := (i 0).isLt
  have h1 : (i 1).val < 128 := (i 1).isLt
  refine congrArg inp (funext fun a => Fin.ext ?_)
  match a with
  | ⟨0, _⟩ => rfl
  | ⟨1, _⟩ => show ((i 0).val * 128 + (i 1).val) / 128 = (i 0).val; omega
  | ⟨2, _⟩ => show ((i 0).val * 128 + (i 1).val) / 1 % 128 = (i 1).val; omega

/-- x₁ = L x₀. -/
theorem v2_eq : val_main_v2 (F := Ideal) L inp = lap L (x0of inp) := by
  funext i
  rw [val_main_v2_apply, v1_eq]
  show _ = ∑ k : Fin 10000, L (ix2 (i 0) k) * x0of inp (ix2 k (i 1))
  exact Finset.sum_congr rfl fun k _ =>
    congrArg₂ (· * ·) (congrArg L (lidx_v2 i k)) (congrArg (x0of inp) (ridx_v2 i k))

/-- L x₁. -/
theorem v3_eq : val_main_v3 (F := Ideal) L inp = lap L (lap L (x0of inp)) := by
  funext i
  rw [val_main_v3_apply, v2_eq]
  show _ = ∑ k : Fin 10000, L (ix2 (i 0) k) * lap L (x0of inp) (ix2 k (i 1))
  exact Finset.sum_congr rfl fun k _ =>
    congrArg₂ (· * ·) (congrArg L (lidx_v3 i k)) (congrArg (lap L (x0of inp)) (ridx_v3 i k))

/-- x₂ = 2 · (L x₁) − x₀. -/
theorem v6_eq : val_main_v6 (F := Ideal) L inp = step L (lap L (x0of inp)) (x0of inp) := by
  funext i
  rw [val_main_v6_apply, val_main_v5_apply, val_main_v4_apply, val_main_cst_apply, v3_eq, v1_eq]
  rfl

/-- L x₂. -/
theorem v7_eq : val_main_v7 (F := Ideal) L inp = lap L (step L (lap L (x0of inp)) (x0of inp)) := by
  funext i
  rw [val_main_v7_apply, v6_eq]
  show _ = ∑ k : Fin 10000, L (ix2 (i 0) k) * step L (lap L (x0of inp)) (x0of inp) (ix2 k (i 1))
  exact Finset.sum_congr rfl fun k _ =>
    congrArg₂ (· * ·) (congrArg L (lidx_v7 i k)) (congrArg (step L (lap L (x0of inp)) (x0of inp)) (ridx_v7 i k))

/-- x₃ = 2 · (L x₂) − x₁. -/
theorem v10_eq :
    val_main_v10 (F := Ideal) L inp = step L (step L (lap L (x0of inp)) (x0of inp)) (lap L (x0of inp)) := by
  funext i
  rw [val_main_v10_apply, val_main_v9_apply, val_main_v8_apply, val_main_cst_0_apply, v7_eq, v2_eq]
  rfl

/-! ## The four orders side by side: X(v, 4 f + k) = xₖ(v, f)

Column r = 4 f + k of the 512 is channel f = r / 4 of order k = r mod 4. -/

theorem idx18_eq (v : Fin 10000) (f : Fin 128) (k : Fin 4) (r : Fin 512) (hr : r.val = 4 * f.val + k.val) :
    idx_main_v18 (ix2 v r) = ix4 (0 : Fin 1) v f k := by
  have hv : v.val < 10000 := v.isLt
  have hf : f.val < 128 := f.isLt
  have hk : k.val < 4 := k.isLt
  refine funext fun a => Fin.ext ?_
  match a with
  | ⟨0, _⟩ => rfl
  | ⟨1, _⟩ => show (v.val * 512 + r.val) / 512 % 10000 = v.val; omega
  | ⟨2, _⟩ => show (v.val * 512 + r.val) / 4 % 128 = f.val; omega
  | ⟨3, _⟩ => show (v.val * 512 + r.val) % 4 = k.val; omega

theorem idx17_eq (a : Fin 1) (b : Fin 10000) (c : Fin 128) (d : Fin 4) :
    idx_main_v17 (ix4 a b c d) = ix4 d b c a := by
  funext e; match e with | ⟨0, _⟩ => rfl | ⟨1, _⟩ => rfl | ⟨2, _⟩ => rfl | ⟨3, _⟩ => rfl

theorem idx16_eq (k : Fin 4) (v : Fin 10000) (f : Fin 128) (z : Fin 1) :
    idx_main_v16 (ix4 k v f z) = ix3 k v f := by
  have hk : k.val < 4 := k.isLt
  have hv : v.val < 10000 := v.isLt
  have hf : f.val < 128 := f.isLt
  have hz : z.val < 1 := z.isLt
  refine funext fun a => Fin.ext ?_
  match a with
  | ⟨0, _⟩ => show (((k.val * 10000 + v.val) * 128 + f.val) * 1 + z.val) / 1280000 = k.val; omega
  | ⟨1, _⟩ => show (((k.val * 10000 + v.val) * 128 + f.val) * 1 + z.val) / 128 % 10000 = v.val; omega
  | ⟨2, _⟩ => show (((k.val * 10000 + v.val) * 128 + f.val) * 1 + z.val) % 128 = f.val; omega

/-- X(v, 4 f + k) is entry (k, v, f) of the stack of the four orders. -/
theorem v18_at (v : Fin 10000) (f : Fin 128) (k : Fin 4) (r : Fin 512) (hr : r.val = 4 * f.val + k.val) :
    val_main_v18 (F := Ideal) L inp (ix2 v r) = val_main_v15 (F := Ideal) L inp (ix3 k v f) := by
  rw [val_main_v18_apply, val_main_v17_apply, val_main_v16_apply, idx18_eq v f k r hr, idx17_eq, idx16_eq]

/-! ### The stack of four: entry (k, v, f) is piece k at (0, v, f) -/

theorem v15_at0 (v : Fin 10000) (f : Fin 128) :
    val_main_v15 (F := Ideal) L inp (ix3 (0 : Fin 4) v f) = val_main_v11 (F := Ideal) inp (ix3 (0 : Fin 1) v f) := by
  unfold val_main_v15
  exact concatenate_apply_piece (0 : Fin S4x10000x128.rank) _ _ (ix3 (0 : Fin 4) v f) 0 (by show (0 : Nat) < 4; decide)
    S1x10000x128 _ rfl rfl 0 rfl (ix3 (0 : Fin 1) v f)
    (fun b => match b with
      | ⟨0, _⟩ => fun hb => absurd (Fin.ext rfl) hb
      | ⟨1, _⟩ => fun _ => rfl
      | ⟨2, _⟩ => fun _ => rfl)
    rfl

theorem v15_at1 (v : Fin 10000) (f : Fin 128) :
    val_main_v15 (F := Ideal) L inp (ix3 (1 : Fin 4) v f) = val_main_v12 (F := Ideal) L inp (ix3 (0 : Fin 1) v f) := by
  unfold val_main_v15
  exact concatenate_apply_piece (0 : Fin S4x10000x128.rank) _ _ (ix3 (1 : Fin 4) v f) 1 (by show (1 : Nat) < 4; decide)
    S1x10000x128 _ rfl rfl 1 rfl (ix3 (0 : Fin 1) v f)
    (fun b => match b with
      | ⟨0, _⟩ => fun hb => absurd (Fin.ext rfl) hb
      | ⟨1, _⟩ => fun _ => rfl
      | ⟨2, _⟩ => fun _ => rfl)
    rfl

theorem v15_at2 (v : Fin 10000) (f : Fin 128) :
    val_main_v15 (F := Ideal) L inp (ix3 (2 : Fin 4) v f) = val_main_v13 (F := Ideal) L inp (ix3 (0 : Fin 1) v f) := by
  unfold val_main_v15
  exact concatenate_apply_piece (0 : Fin S4x10000x128.rank) _ _ (ix3 (2 : Fin 4) v f) 2 (by show (2 : Nat) < 4; decide)
    S1x10000x128 _ rfl rfl 2 rfl (ix3 (0 : Fin 1) v f)
    (fun b => match b with
      | ⟨0, _⟩ => fun hb => absurd (Fin.ext rfl) hb
      | ⟨1, _⟩ => fun _ => rfl
      | ⟨2, _⟩ => fun _ => rfl)
    rfl

theorem v15_at3 (v : Fin 10000) (f : Fin 128) :
    val_main_v15 (F := Ideal) L inp (ix3 (3 : Fin 4) v f) = val_main_v14 (F := Ideal) L inp (ix3 (0 : Fin 1) v f) := by
  unfold val_main_v15
  exact concatenate_apply_piece (0 : Fin S4x10000x128.rank) _ _ (ix3 (3 : Fin 4) v f) 3 (by show (3 : Nat) < 4; decide)
    S1x10000x128 _ rfl rfl 3 rfl (ix3 (0 : Fin 1) v f)
    (fun b => match b with
      | ⟨0, _⟩ => fun hb => absurd (Fin.ext rfl) hb
      | ⟨1, _⟩ => fun _ => rfl
      | ⟨2, _⟩ => fun _ => rfl)
    rfl

/-! ### Each piece is one order with a batch axis of extent one put in front -/

theorem idx11_eq (z : Fin 1) (v : Fin 10000) (f : Fin 128) : idx_main_v11 (ix3 z v f) = ix2 v f := by
  funext a; match a with | ⟨0, _⟩ => rfl | ⟨1, _⟩ => rfl
theorem idx12_eq (z : Fin 1) (v : Fin 10000) (f : Fin 128) : idx_main_v12 (ix3 z v f) = ix2 v f := by
  funext a; match a with | ⟨0, _⟩ => rfl | ⟨1, _⟩ => rfl
theorem idx13_eq (z : Fin 1) (v : Fin 10000) (f : Fin 128) : idx_main_v13 (ix3 z v f) = ix2 v f := by
  funext a; match a with | ⟨0, _⟩ => rfl | ⟨1, _⟩ => rfl
theorem idx14_eq (z : Fin 1) (v : Fin 10000) (f : Fin 128) : idx_main_v14 (ix3 z v f) = ix2 v f := by
  funext a; match a with | ⟨0, _⟩ => rfl | ⟨1, _⟩ => rfl

/-- X(v, 4 f) = x₀(v, f). -/
theorem X0_at (v : Fin 10000) (f : Fin 128) (r : Fin 512) (hr : r.val = 4 * f.val + (0 : Fin 4).val) :
    val_main_v18 (F := Ideal) L inp (ix2 v r) = x0of inp (ix2 v f) := by
  rw [v18_at L inp v f 0 r hr, v15_at0, val_main_v11_apply, idx11_eq, v1_eq]

/-- X(v, 4 f + 1) = x₁(v, f). -/
theorem X1_at (v : Fin 10000) (f : Fin 128) (r : Fin 512) (hr : r.val = 4 * f.val + (1 : Fin 4).val) :
    val_main_v18 (F := Ideal) L inp (ix2 v r) = lap L (x0of inp) (ix2 v f) := by
  rw [v18_at L inp v f 1 r hr, v15_at1, val_main_v12_apply, idx12_eq, v2_eq]

/-- X(v, 4 f + 2) = x₂(v, f). -/
theorem X2_at (v : Fin 10000) (f : Fin 128) (r : Fin 512) (hr : r.val = 4 * f.val + (2 : Fin 4).val) :
    val_main_v18 (F := Ideal) L inp (ix2 v r) = step L (lap L (x0of inp)) (x0of inp) (ix2 v f) := by
  rw [v18_at L inp v f 2 r hr, v15_at2, val_main_v13_apply, idx13_eq, v6_eq]

/-- X(v, 4 f + 3) = x₃(v, f) = 2 · (L x₂)(v, f) − x₁(v, f). -/
theorem X3_at (v : Fin 10000) (f : Fin 128) (r : Fin 512) (hr : r.val = 4 * f.val + (3 : Fin 4).val) :
    val_main_v18 (F := Ideal) L inp (ix2 v r)
      = stepAt L (step L (lap L (x0of inp)) (x0of inp)) (lap L (x0of inp)) v f := by
  rw [v18_at L inp v f 3 r hr, v15_at3, val_main_v14_apply, idx14_eq, v10_eq]
  rfl

/-! ## The weights as 512 rows, and the permuted rows -/

/-- Row r of the 512 is row r mod 128 of block r / 128. -/
theorem v19_at (r : Fin 512) (o : Fin 128) : val_main_v19 (F := Ideal) wt (ix2 r o) = wrow wt r o := by
  have hr : r.val < 512 := r.isLt
  have ho : o.val < 128 := o.isLt
  rw [val_main_v19_apply]
  unfold wrow
  refine congrArg wt (funext fun a => Fin.ext ?_)
  match a with
  | ⟨0, _⟩ => show (r.val * 128 + o.val) / 16384 = r.val / 128; omega
  | ⟨1, _⟩ => show (r.val * 128 + o.val) / 128 % 128 = r.val % 128; omega
  | ⟨2, _⟩ => show (r.val * 128 + o.val) % 128 = o.val; omega

/-- Row j of the permuted weights is row 4 · (j mod 128) + j / 128 of the 512. -/
theorem wperm_at (j r : Fin 512) (o : Fin 128) (h : 4 * (j.val % 128) + j.val / 128 = r.val) :
    wperm wt (ix2 j o) = wrow wt r o := by
  show wrow wt (⟨4 * (j.val % 128) + j.val / 128, by have := j.isLt; omega⟩ : Fin 512) o = wrow wt r o
  exact congrArg (fun q => wrow wt q o) (Fin.ext h)

/-! ## The result -/

/-- The product with the weights at (0, v, o): the sum over the 512 rows. -/
theorem v21_at (z : Fin 1) (v : Fin 10000) (o : Fin 128) :
    val_main_v21 (F := Ideal) L inp wt (ix3 z v o)
      = ∑ r : Fin 512, val_main_v18 (F := Ideal) L inp (ix2 v r) * val_main_v19 (F := Ideal) wt (ix2 r o) := by
  have hz : z.val < 1 := z.isLt
  have hv : v.val < 10000 := v.isLt
  have ho : o.val < 128 := o.isLt
  have e : idx_main_v21 (ix3 z v o) = ix2 v o := funext fun a => Fin.ext (by
    match a with
    | ⟨0, _⟩ => show ((z.val * 10000 + v.val) * 128 + o.val) / 128 = v.val; omega
    | ⟨1, _⟩ => show ((z.val * 10000 + v.val) * 128 + o.val) % 128 = o.val; omega)
  rw [val_main_v21_apply, e, val_main_v20_apply]
  exact Finset.sum_congr rfl fun r _ =>
    congrArg₂ (· * ·) (congrArg (val_main_v18 (F := Ideal) L inp) (lidx_v20 v o r))
      (congrArg (val_main_v19 (F := Ideal) wt) (ridx_v20 v o r))

/-- The bias at (0, v, o) is b(o). -/
theorem v23_at (z : Fin 1) (v : Fin 10000) (o : Fin 128) :
    val_main_v23 (F := Ideal) bs (ix3 z v o) = brow bs (ix2 (0 : Fin 1) o) := by
  rw [val_main_v23_apply, val_main_v22_apply]
  show bs (idx_main_v22 (idx_main_v23 (ix3 z v o))) = bs (ix1 o)
  exact congrArg bs (funext fun a => match a with | ⟨0, _⟩ => rfl)

/-- The rows 4 f of the 512-term sum: order 0 against the permuted rows f. -/
theorem class0 (v : Fin 10000) (o : Fin 128) :
    ∑ f : Fin 128, val_main_v18 (F := Ideal) L inp (ix2 v (⟨4 * f.val, by have := f.isLt; omega⟩ : Fin 512))
        * val_main_v19 (F := Ideal) wt (ix2 (⟨4 * f.val, by have := f.isLt; omega⟩ : Fin 512) o)
      = ∑ f : Fin 128, x0of inp (ix2 v f) * wperm wt (ix2 (⟨f.val, by have := f.isLt; omega⟩ : Fin 512) o) :=
  Finset.sum_congr rfl fun f _ => by
    have hf : f.val < 128 := f.isLt
    exact congrArg₂ (· * ·) (X0_at L inp v f ⟨4 * f.val, by omega⟩ rfl)
      ((v19_at wt ⟨4 * f.val, by omega⟩ o).trans
        (wperm_at wt ⟨f.val, by omega⟩ ⟨4 * f.val, by omega⟩ o
          (by show 4 * (f.val % 128) + f.val / 128 = 4 * f.val; omega)).symm)

/-- The rows 4 f + 1: order 1 against the permuted rows 128 + f. -/
theorem class1 (v : Fin 10000) (o : Fin 128) :
    ∑ f : Fin 128, val_main_v18 (F := Ideal) L inp (ix2 v (⟨4 * f.val + 1, by have := f.isLt; omega⟩ : Fin 512))
        * val_main_v19 (F := Ideal) wt (ix2 (⟨4 * f.val + 1, by have := f.isLt; omega⟩ : Fin 512) o)
      = ∑ f : Fin 128, lap L (x0of inp) (ix2 v f)
          * wperm wt (ix2 (⟨128 + f.val, by have := f.isLt; omega⟩ : Fin 512) o) :=
  Finset.sum_congr rfl fun f _ => by
    have hf : f.val < 128 := f.isLt
    exact congrArg₂ (· * ·) (X1_at L inp v f ⟨4 * f.val + 1, by omega⟩ rfl)
      ((v19_at wt ⟨4 * f.val + 1, by omega⟩ o).trans
        (wperm_at wt ⟨128 + f.val, by omega⟩ ⟨4 * f.val + 1, by omega⟩ o
          (by show 4 * ((128 + f.val) % 128) + (128 + f.val) / 128 = 4 * f.val + 1; omega)).symm)

/-- The rows 4 f + 2: order 2 against the permuted rows 256 + f. -/
theorem class2 (v : Fin 10000) (o : Fin 128) :
    ∑ f : Fin 128, val_main_v18 (F := Ideal) L inp (ix2 v (⟨4 * f.val + 2, by have := f.isLt; omega⟩ : Fin 512))
        * val_main_v19 (F := Ideal) wt (ix2 (⟨4 * f.val + 2, by have := f.isLt; omega⟩ : Fin 512) o)
      = ∑ f : Fin 128, step L (lap L (x0of inp)) (x0of inp) (ix2 v f)
          * wperm wt (ix2 (⟨256 + f.val, by have := f.isLt; omega⟩ : Fin 512) o) :=
  Finset.sum_congr rfl fun f _ => by
    have hf : f.val < 128 := f.isLt
    exact congrArg₂ (· * ·) (X2_at L inp v f ⟨4 * f.val + 2, by omega⟩ rfl)
      ((v19_at wt ⟨4 * f.val + 2, by omega⟩ o).trans
        (wperm_at wt ⟨256 + f.val, by omega⟩ ⟨4 * f.val + 2, by omega⟩ o
          (by show 4 * ((256 + f.val) % 128) + (256 + f.val) / 128 = 4 * f.val + 2; omega)).symm)

/-- The rows 4 f + 3: order 3 against the permuted rows 384 + f. -/
theorem class3 (v : Fin 10000) (o : Fin 128) :
    ∑ f : Fin 128, val_main_v18 (F := Ideal) L inp (ix2 v (⟨4 * f.val + 3, by have := f.isLt; omega⟩ : Fin 512))
        * val_main_v19 (F := Ideal) wt (ix2 (⟨4 * f.val + 3, by have := f.isLt; omega⟩ : Fin 512) o)
      = ∑ f : Fin 128, stepAt L (step L (lap L (x0of inp)) (x0of inp)) (lap L (x0of inp)) v f
          * wperm wt (ix2 (⟨384 + f.val, by have := f.isLt; omega⟩ : Fin 512) o) :=
  Finset.sum_congr rfl fun f _ => by
    have hf : f.val < 128 := f.isLt
    exact congrArg₂ (· * ·) (X3_at L inp v f ⟨4 * f.val + 3, by omega⟩ rfl)
      ((v19_at wt ⟨4 * f.val + 3, by omega⟩ o).trans
        (wperm_at wt ⟨384 + f.val, by omega⟩ ⟨4 * f.val + 3, by omega⟩ o
          (by show 4 * ((384 + f.val) % 128) + (384 + f.val) / 128 = 4 * f.val + 3; omega)).symm)

/-- **The reference's result is `G`**: the sum over the 512 rows is the four sums over its residue classes
    modulo 4, and each class is one order against its 128 permuted weight rows. -/
theorem ref_eq_G (x0 : Cert.Cheb.SL.Idx → EReal) (x1 : Cert.Cheb.SIn.Idx → EReal) (x2 : Cert.Cheb.SWt.Idx → EReal)
    (x3 : Cert.Cheb.SBs.Idx → EReal) :
    Cert.ReferenceIdeal.Read.val_main_v24 (F := Ideal) x0 x1 x2 x3 = Cert.Cheb.G x0 x1 x2 x3 := by
  funext i
  obtain ⟨z, v, o, rfl⟩ : ∃ (z : Fin 1) (v : Fin 10000) (o : Fin 128), i = ix3 z v o :=
    ⟨i 0, i 1, i 2, eq_ix3 i⟩
  rw [val_main_v24_apply, v21_at, v23_at, sum_four_classes, class0, class1, class2, class3]
  rfl

end Cert.ReferenceIdeal.RefValue

end
-- ==== Proof.Claims.lean ====
/-
  The five conjuncts of the claim.

  The three frames: the two kernel programs run, fault-free, with the argument arrays unchanged (the runs over
  their three regions and two host stretches); the reference's frame is its run with the result dropped.
  The idealization rewrote no operation, so there is nothing to preserve beyond the program's own text.
  The value claim: at the ideal values the kernel's result array ends at `G` of the four argument arrays
  (the run through the boundaries' contents, region by region), the reference's at its last host stage, and that
  stage is `G` of the same arrays: one function of arguments that agree.
-/
import proofs.«155581_g1580547967739_cont_week2b_856_4_alg».proof.Defs
import proofs.«155581_g1580547967739_cont_week2b_856_4_alg».proof.Proof.Gen.Kernel.Frame
import proofs.«155581_g1580547967739_cont_week2b_856_4_alg».proof.Proof.Gen.KernelIdeal.Frame
import proofs.«155581_g1580547967739_cont_week2b_856_4_alg».proof.Proof.Gen.ReferenceIdeal.Run
import proofs.«155581_g1580547967739_cont_week2b_856_4_alg».proof.Proof.Gen.ReferenceIdeal.Read
import proofs.«155581_g1580547967739_cont_week2b_856_4_alg».proof.Proof.Gen.Pre_finite_inputs
import proofs.«155581_g1580547967739_cont_week2b_856_4_alg».proof.Proof.Whole
import proofs.«155581_g1580547967739_cont_week2b_856_4_alg».proof.Proof.RefIsG

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `G` of the argument arrays: the kernel's by its run through the three
    passes, the reference's because its last stage is `G`; the arguments agree. -/
theorem algebraic : Cert.algebraic_KernelIdeal_ReferenceIdeal := by
  intro m ρ m' ρ' _ hagree
  refine ⟨fun c => Cert.Cheb.G (Cert.KernelIdeal.Whole.aL m c) (Cert.KernelIdeal.Whole.aIn m c)
      (Cert.KernelIdeal.Whole.aWt m c) (Cert.KernelIdeal.Whole.aBs m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  exact Cert.ReferenceIdeal.RefValue.ref_eq_G _ _ _ _

end Cert.Proof.Claims

end
-- ==== Proof.lean ====
/-
  The Chebyshev graph convolution of order four: the three-pass kernel against its reference, over the
  extended reals.

  With `L` the 10000 × 10000 Laplacian and `x₀` the 10000 × 128 input, both programs form
  `x₁ = L x₀`, `x₂ = 2 · (L x₁) − x₀`, `x₃ = 2 · (L x₂) − x₁` and return
  `∑ₖ ∑_f xₖ(v, f) · w(4 f + k, o) + b(o)` at row `v`, output channel `o`, `w` the weights read as 512 rows.

  The kernel does it in three passes over row blocks of 400 rows of `L`: the first stores `L` again in a shorter
  float format together with `x₀` and `x₁`, the second `x₂`, the third forms `x₃` on the spot and adds the four
  orders' products with their 128 weight rows one after the other, then the bias. Every change of float format is
  the identity at the ideal values, every product of a row block with a whole operand is the sum over the
  10000 columns, and the row blocks tile each array, so each pass's output arrays are the recurrence's arrays
  (Proof/Pass1, Pass2, Pass3) and the result array is the function `G` of the four arguments (Proof/Whole).
  The reference stacks the four orders, interleaves them to 512 columns `4 f + k` and takes ONE product with the
  512 weight rows; a sum over 512 rows is the four sums over its residue classes modulo 4, addition on the extended
  reals being commutative and associative (Proof/Spec `sum_four_classes`), so its last stage is `G` too
  (Proof/RefIsG). Neither side distributes a product over a sum, so the inputs' finiteness is never used.
-/
import proofs.«155581_g1580547967739_cont_week2b_856_4_alg».proof.Defs
import proofs.«155581_g1580547967739_cont_week2b_856_4_alg».proof.Proof.Gen.Kernel
import proofs.«155581_g1580547967739_cont_week2b_856_4_alg».proof.Proof.Gen.Kernel.Skeleton
import proofs.«155581_g1580547967739_cont_week2b_856_4_alg».proof.Proof.Gen.Kernel.Launch
import proofs.«155581_g1580547967739_cont_week2b_856_4_alg».proof.Proof.Gen.Kernel.Points
import proofs.«155581_g1580547967739_cont_week2b_856_4_alg».proof.Proof.Gen.Kernel.Frame
import proofs.«155581_g1580547967739_cont_week2b_856_4_alg».proof.Proof.Gen.KernelIdeal
import proofs.«155581_g1580547967739_cont_week2b_856_4_alg».proof.Proof.Gen.KernelIdeal.Skeleton
import proofs.«155581_g1580547967739_cont_week2b_856_4_alg».proof.Proof.Gen.KernelIdeal.Launch
import proofs.«155581_g1580547967739_cont_week2b_856_4_alg».proof.Proof.Gen.KernelIdeal.Points
import proofs.«155581_g1580547967739_cont_week2b_856_4_alg».proof.Proof.Gen.KernelIdeal.Frame
import proofs.«155581_g1580547967739_cont_week2b_856_4_alg».proof.Proof.Gen.ReferenceIdeal
import proofs.«155581_g1580547967739_cont_week2b_856_4_alg».proof.Proof.Gen.ReferenceIdeal.Run
import proofs.«155581_g1580547967739_cont_week2b_856_4_alg».proof.Proof.Gen.ReferenceIdeal.Read
import proofs.«155581_g1580547967739_cont_week2b_856_4_alg».proof.Proof.Gen.Pre_finite_inputs
import proofs.«155581_g1580547967739_cont_week2b_856_4_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
